-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S800000x8 : Shape := ⟨2, ![800000, 8]⟩
abbrev S800000 : Shape := ⟨1, ![800000]⟩
abbrev S40x64 : Shape := ⟨2, ![40, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S800000 : S_.BroadcastsInDim S800000 (![] : Fin 0 → Fin S800000.rank)
  reducesTo_S800000_S_d0 : S800000.ReducesTo [0] S_
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg16 : FVec F S16 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  main_v73

def fn_part3 {F : FTy → Type} [FloatOps F] (main_arg13 : FVec F S64x64 .f32) (main_arg14 : FVec F S64 .f32) (main_arg15 : FVec F S64x16 .f32) (main_arg16 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x16 .f32 := Host.absf main_arg15
  let main_cst_24 : FVec F S_ .f32 := constant S_ .f32 0x7F800000#32
  let main_v65 : FVec F S64x16 .f32 := broadcastInDim S64x16 ![] bcast_S_S64x16 main_cst_24
  let main_v66 : IVec S64x16 1 := cmpf .olt main_v64 main_v65
  let main_c_25 : IVec S_ 1 := constantI S_ 1 1#1
  let main_v67 : IVec S_ 1 := (fun x v => Host.reduce IntOp.andi x v reducesTo_S64x16_S_d0_1 h_S_) main_v66 main_c_25
  fn_part4 (F := F) main_arg16 main_v63 main_v67

def fn_part2 {F : FTy → Type} [FloatOps F] (main_arg9 : FVec F S64x16 .f32) (main_arg10 : FVec F S16 .f32) (main_arg11 : FVec F S40x64 .f32) (main_arg12 : FVec F S64 .f32) (main_arg13 : FVec F S64x64 .f32) (main_arg14 : FVec F S64 .f32) (main_arg15 : FVec F S64x16 .f32) (main_arg16 : FVec F S16 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S40x64 .f32 := Host.absf main_arg11
  let main_cst_16 : FVec F S_ .f32 := constant S_ .f32 0x7F800000#32
  let main_v45 : FVec F S40x64 .f32 := broadcastInDim S40x64 ![] bcast_S_S40x64 main_cst_16
  let main_v46 : IVec S40x64 1 := cmpf .olt main_v44 main_v45
  let main_c_17 : IVec S_ 1 := constantI S_ 1 1#1
  let main_v47 : IVec S_ 1 := (fun x v => Host.reduce IntOp.andi x v reducesTo_S40x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64x16 .f32) (main_arg10 : FVec F S16 .f32) (main_arg11 : FVec F S40x64 .f32) (main_arg12 : FVec F S64 .f32) (main_arg13 : FVec F S64x64 .f32) (main_arg14 : FVec F S64 .f32) (main_arg15 : FVec F S64x16 .f32) (main_arg16 : FVec F S16 .f32) (main_v13 : IVec S_ 1) (main_v16 : IVec S40x64 1) : IVec S_ 1 :=
  let main_c_5 : IVec S_ 1 := constantI S_ 1 1#1
  let main_v17 : IVec S_ 1 := (fun x v => Host.reduce IntOp.andi x v reducesTo_S40x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x16 .f32) (main_arg1 : FVec F S800000x8 .f32) (main_arg2 : FVec F S800000 .f32) (main_arg3 : IVec S800000 32) (main_arg4 : IVec S800000 32) (main_arg5 : FVec F S40x64 .f32) (main_arg6 : FVec F S64 .f32) (main_arg7 : FVec F S64x64 .f32) (main_arg8 : FVec F S64 .f32) (main_arg9 : FVec F S64x16 .f32) (main_arg10 : FVec F S16 .f32) (main_arg11 : FVec F S40x64 .f32) (main_arg12 : FVec F S64 .f32) (main_arg13 : FVec F S64x64 .f32) (main_arg14 : FVec F S64 .f32) (main_arg15 : FVec F S64x16 .f32) (main_arg16 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S800000x8 .f32 := Host.absf main_arg1
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S40x64 .f32 := Host.absf main_arg5
  let main_cst_4 : FVec F S_ .f32 := constant S_ .f32 0x7F800000#32
  let main_v15 : FVec F S40x64 .f32 := broadcastInDim S40x64 ![] bcast_S_S40x64 main_cst_4
  let main_v16 : IVec S40x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x16 : Shape := ⟨2, ![100000, 16]⟩
abbrev S800000x8 : Shape := ⟨2, ![800000, 8]⟩
abbrev S800000 : Shape := ⟨1, ![800000]⟩
abbrev S40x64 : Shape := ⟨2, ![40, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S800000x1 : Shape := ⟨2, ![800000, 1]⟩
abbrev S_ : Shape := ⟨0, ![]⟩
abbrev S800000x16 : Shape := ⟨2, ![800000, 16]⟩
abbrev S800000x40 : Shape := ⟨2, ![800000, 40]⟩
abbrev S40x128 : Shape := ⟨2, ![40, 128]⟩
abbrev S128 : Shape := ⟨1, ![128]⟩
abbrev S64x128 : Shape := ⟨2, ![64, 128]⟩
abbrev S128x128 : Shape := ⟨2, ![128, 128]⟩
abbrev S64x32 : Shape := ⟨2, ![64, 32]⟩
abbrev S128x32 : Shape := ⟨2, ![128, 32]⟩
abbrev S32 : Shape := ⟨1, ![32]⟩
abbrev S800000x32 : Shape := ⟨2, ![800000, 32]⟩
abbrev S20000x40 : Shape := ⟨2, ![20000, 40]⟩
abbrev S20000x32 : Shape := ⟨2, ![20000, 32]⟩
abbrev S20000x128 : Shape := ⟨2, ![20000, 128]⟩
abbrev S1x128 : Shape := ⟨2, ![1, 128]⟩
abbrev S1x32 : Shape := ⟨2, ![1, 32]⟩

abbrev nBuf : Space → Nat
  | .hbm => 90
  | .vmem => 10
  | .smem => 0
  | _ => 0

abbrev bufTy : (tb : Table) → Fin (tcTables nBuf tb) → BufTy
  | .hbm, ⟨0, _⟩ => ⟨S100000x16, .f32⟩
  | .hbm, ⟨1, _⟩ => ⟨S800000x8, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S40x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S40x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x16, .f32⟩
  | .hbm, ⟨16, _⟩ => ⟨S16, .f32⟩
  | .hbm, ⟨17, _⟩ => ⟨S800000x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x16, .f32⟩
  | .hbm, ⟨27, _⟩ => ⟨S800000x16, .f32⟩
  | .hbm, ⟨28, _⟩ => ⟨S800000x16, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x16, .f32⟩
  | .hbm, ⟨38, _⟩ => ⟨S800000x16, .f32⟩
  | .hbm, ⟨39, _⟩ => ⟨S800000x16, .f32⟩
  | .hbm, ⟨40, _⟩ => ⟨S800000x8, .f32⟩
  | .hbm, ⟨41, _⟩ => ⟨S800000x8, .f32⟩
  | .hbm, ⟨42, _⟩ => ⟨S800000x40, .f32⟩
  | .hbm, ⟨43, _⟩ => ⟨S40x128, .f32⟩
  | .hbm, ⟨44, _⟩ => ⟨S40x128, .bf16⟩
  | .hbm, ⟨45, _⟩ => ⟨S128, .f32⟩
  | .hbm, ⟨46, _⟩ => ⟨S_, .f32⟩
  | .hbm, ⟨47, _⟩ => ⟨S64x64, .f32⟩
  | .hbm, ⟨48, _⟩ => ⟨S64x128, .f32⟩
  | .hbm, ⟨49, _⟩ => ⟨S_, .f32⟩
  | .hbm, ⟨50, _⟩ => ⟨S64x64, .f32⟩
  | .hbm, ⟨51, _⟩ => ⟨S64x128, .f32⟩
  | .hbm, ⟨52, _⟩ => ⟨S128x128, .f32⟩
  | .hbm, ⟨53, _⟩ => ⟨S128x128, .bf16⟩
  | .hbm, ⟨54, _⟩ => ⟨S128, .f32⟩
  | .hbm, ⟨55, _⟩ => ⟨S_, .f32⟩
  | .hbm, ⟨56, _⟩ => ⟨S64x16, .f32⟩
  | .hbm, ⟨57, _⟩ => ⟨S64x32, .f32⟩
  | .hbm, ⟨58, _⟩ => ⟨S_, .f32⟩
  | .hbm, ⟨59, _⟩ => ⟨S64x16, .f32⟩
  | .hbm, ⟨60, _⟩ => ⟨S64x32, .f32⟩
  | .hbm, ⟨61, _⟩ => ⟨S128x32, .f32⟩
  | .hbm, ⟨62, _⟩ => ⟨S128x32, .bf16⟩
  | .hbm, ⟨63, _⟩ => ⟨S32, .f32⟩
  | .hbm, ⟨64, _⟩ => ⟨S800000x32, .f32⟩
  | .hbm, ⟨65, _⟩ => ⟨S800000x32, .f32⟩
  | .hbm, ⟨66, _⟩ => ⟨S800000x32, .f32⟩
  | .hbm, ⟨67, _⟩ => ⟨S800000x16, .f32⟩
  | .hbm, ⟨68, _⟩ => ⟨S800000x16, .f32⟩
  | .hbm, ⟨69, _⟩ => ⟨S_, .f32⟩
  | .hbm, ⟨70, _⟩ => ⟨S100000x16, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S100000x16, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S100000x16, .f32⟩
  | .hbm, ⟨89, _⟩ => ⟨S100000x16, .f32⟩
  | .local _ .vmem, ⟨0, _⟩ => ⟨S20000x40, .f32⟩
  | .local _ .vmem, ⟨1, _⟩ => ⟨S20000x40, .f32⟩
  | .local _ .vmem, ⟨2, _⟩ => ⟨S40x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x32, .bf16⟩
  | .local _ .vmem, ⟨7, _⟩ => ⟨S32, .f32⟩
  | .local _ .vmem, ⟨8, _⟩ => ⟨S20000x32, .f32⟩
  | .local _ .vmem, ⟨9, _⟩ => ⟨S20000x32, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S20000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x16_0_1 : S800000x1.BroadcastsInDim S800000x16 (![0, 1] : Fin 2 → Fin S800000x16.rank)
  bcast_S800000x1_S800000x8_0_1 : S800000x1.BroadcastsInDim S800000x8 (![0, 1] : Fin 2 → Fin S800000x8.rank)
  concatenates_S800000x8_S800000x16_S800000x16_S800000x40_d1 : Shape.Concatenates [S800000x8, S800000x16, S800000x16] S800000x40 1
  concatenates_S40x64_S40x64_S40x128_d1 : Shape.Concatenates [S40x64, S40x64] S40x128 1
  bitsLt_bf16_f32 : FTy.bits .bf16 < FTy.bits .f32
  concatenates_S64_S64_S128_d0 : Shape.Concatenates [S64, S64] S128 0
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  bcast_S_S64x16 : S_.BroadcastsInDim S64x16 (![] : Fin 0 → Fin S64x16.rank)
  concatenates_S64x16_S64x16_S64x32_d1 : Shape.Concatenates [S64x16, S64x16] S64x32 1
  concatenates_S64x32_S64x32_S128x32_d0 : Shape.Concatenates [S64x32, S64x32] S128x32 0
  concatenates_S16_S16_S32_d0 : Shape.Concatenates [S16, S16] S32 0
  inb_S20000x40_S20000x40_0_0 : ∀ a, (![0, 0] : Fin 2 → Nat) a + S20000x40.size a ≤ S20000x40.size a
  h_S20000x40 : 0 < S20000x40.numel
  shapeCasts_S20000x40_S20000x40 : S20000x40.ShapeCasts S20000x40
  inb_S40x128_S40x128_0_0 : ∀ a, (![0, 0] : Fin 2 → Nat) a + S40x128.size a ≤ S40x128.size a
  h_S40x128 : 0 < S40x128.numel
  shapeCasts_S40x128_S40x128 : S40x128.ShapeCasts S40x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S20000x128 : S1x128.Broadcasts S20000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S20000x32 : S1x32.Broadcasts S20000x32
  inb_S20000x32_S20000x32_0_0 : ∀ a, (![0, 0] : Fin 2 → Nat) a + S20000x32.size a ≤ S20000x32.size a
  h_S20000x32 : 0 < S20000x32.numel
  bcast_S800000x1_S800000x32_0_1 : S800000x1.BroadcastsInDim S800000x32 (![0, 1] : Fin 2 → Fin S800000x32.rank)
  slices_S800000x32_S800000x16_0_0 : S800000x32.Slices ![0, 0] S800000x16
  slices_S800000x32_S800000x16_0_16 : S800000x32.Slices ![0, 16] S800000x16
  bcast_S_S100000x16 : S_.BroadcastsInDim S100000x16 (![] : Fin 0 → Fin S100000x16.rank)
  gather_S100000x16_S800000x1_S800000x16_1_0_n_n_0_1_116_wf : GatherDims.WF S100000x16 S800000x1 S800000x16 [1] [0] [] [0] [] 1 ![1, 16]
  dot_S20000x40_S40x128_S20000x128_1_0_0_1_n_n_wf : DotDims.WF S20000x40 S40x128 S20000x128 [1] [0] [0] [1] [] []
  dot_S20000x128_S128x128_S20000x128_1_0_0_1_n_n_wf : DotDims.WF S20000x128 S128x128 S20000x128 [1] [0] [0] [1] [] []
  dot_S20000x128_S128x32_S20000x32_1_0_0_1_n_n_wf : DotDims.WF S20000x128 S128x32 S20000x32 [1] [0] [0] [1] [] []
  scatter_S100000x16_S800000x1_S800000x16_1_0_0_1_wf : ScatterDims.WF S100000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x40.size a ≤ S800000x40.size a
  hwx0_0 : ∀ i : grid0.Coords, EltTy.bits .f32 = 32 ∨ (Rect.block (s := S800000x40) S20000x40.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x128.size a ≤ S40x128.size a
  hwx0_1 : ∀ i : grid0.Coords, EltTy.bits .bf16 = 32 ∨ (Rect.block (s := S40x128) S40x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .bf16 = 32 ∨ (Rect.block (s := S128x32) S128x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S20000x32.size a ≤ S800000x32.size a
  hwx0_7 : ∀ i : grid0.Coords, EltTy.bits .f32 = 32 ∨ (Rect.block (s := S800000x32) S20000x32.size (cc0_transform_7 i) (hinb0_7 i)).WholeWords (EltTy.packing .f32)

variable [Facts₀]

def gather_S100000x16_S800000x1_S800000x16_1_0_n_n_0_1_116 : GatherDims S100000x16 S800000x1 S800000x16 where
  offsetDims := [1]
  collapsedSliceDims := [0]
  operandBatchingDims := []
  startIndicesBatchingDims := []
  startIndexMap := [0]
  indexVectorDim := 1
  sliceSizes := ![1, 16]
  wf := gather_S100000x16_S800000x1_S800000x16_1_0_n_n_0_1_116_wf
def dot_S20000x40_S40x128_S20000x128_1_0_0_1_n_n : DotDims S20000x40 S40x128 S20000x128 where
  lhsContracting := [1]
  rhsContracting := [0]
  lhsNonContracting := [0]
  rhsNonContracting := [1]
  lhsBatch := []
  rhsBatch := []
  wf := dot_S20000x40_S40x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x32_S20000x32_1_0_0_1_n_n : DotDims S20000x128 S128x32 S20000x32 where
  lhsContracting := [1]
  rhsContracting := [0]
  lhsNonContracting := [0]
  rhsNonContracting := [1]
  lhsBatch := []
  rhsBatch := []
  wf := dot_S20000x128_S128x32_S20000x32_1_0_0_1_n_n_wf
def scatter_S100000x16_S800000x1_S800000x16_1_0_0_1 : ScatterDims S100000x16 S800000x1 S800000x16 where
  updateWindowDims := [1]
  insertedWindowDims := [0]
  scatterDimsToOperandDims := [0]
  indexVectorDim := 1
  wf := scatter_S100000x16_S800000x1_S800000x16_1_0_0_1_wf

abbrev win0_0 : Pipeline.Window sig grid0 :=
  Pipeline.Window.ofSpec (Memref.whole main_v21) S20000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S40x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S20000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x16 : Shape := ⟨2, ![100000, 16]⟩
abbrev S800000x8 : Shape := ⟨2, ![800000, 8]⟩
abbrev S800000 : Shape := ⟨1, ![800000]⟩
abbrev S40x64 : Shape := ⟨2, ![40, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S800000x1 : Shape := ⟨2, ![800000, 1]⟩
abbrev S800000x16 : Shape := ⟨2, ![800000, 16]⟩
abbrev S800000x40 : Shape := ⟨2, ![800000, 40]⟩
abbrev S800000x64 : Shape := ⟨2, ![800000, 64]⟩
abbrev S1x64 : Shape := ⟨2, ![1, 64]⟩
abbrev S1x16 : Shape := ⟨2, ![1, 16]⟩

abbrev nBuf : Space → Nat
  | .hbm => 100
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S800000x8, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S40x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S40x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x16, .f32⟩
  | .hbm, ⟨16, _⟩ => ⟨S16, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x16, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x16, .f32⟩
  | .hbm, ⟨35, _⟩ => ⟨S800000x40, .f32⟩
  | .hbm, ⟨36, _⟩ => ⟨S800000x1, .f32⟩
  | .hbm, ⟨37, _⟩ => ⟨S800000x40, .f32⟩
  | .hbm, ⟨38, _⟩ => ⟨S800000x40, .f32⟩
  | .hbm, ⟨39, _⟩ => ⟨S_, .f32⟩
  | .hbm, ⟨40, _⟩ => ⟨S100000x16, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S800000x64, .f32⟩
  | .hbm, ⟨47, _⟩ => ⟨S800000x64, .f32⟩
  | .hbm, ⟨48, _⟩ => ⟨S800000x64, .f32⟩
  | .hbm, ⟨49, _⟩ => ⟨S1x64, .f32⟩
  | .hbm, ⟨50, _⟩ => ⟨S800000x64, .f32⟩
  | .hbm, ⟨51, _⟩ => ⟨S800000x64, .f32⟩
  | .hbm, ⟨52, _⟩ => ⟨S_, .f32⟩
  | .hbm, ⟨53, _⟩ => ⟨S800000x64, .f32⟩
  | .hbm, ⟨54, _⟩ => ⟨S800000x64, .f32⟩
  | .hbm, ⟨55, _⟩ => ⟨S800000x16, .f32⟩
  | .hbm, ⟨56, _⟩ => ⟨S1x16, .f32⟩
  | .hbm, ⟨57, _⟩ => ⟨S800000x16, .f32⟩
  | .hbm, ⟨58, _⟩ => ⟨S800000x16, .f32⟩
  | .hbm, ⟨59, _⟩ => ⟨S800000x16, .f32⟩
  | .hbm, ⟨60, _⟩ => ⟨S800000x16, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S100000x16, .f32⟩
  | .hbm, ⟨70, _⟩ => ⟨S800000x64, .f32⟩
  | .hbm, ⟨71, _⟩ => ⟨S1x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S800000x64, .f32⟩
  | .hbm, ⟨76, _⟩ => ⟨S800000x64, .f32⟩
  | .hbm, ⟨77, _⟩ => ⟨S800000x64, .f32⟩
  | .hbm, ⟨78, _⟩ => ⟨S1x64, .f32⟩
  | .hbm, ⟨79, _⟩ => ⟨S800000x64, .f32⟩
  | .hbm, ⟨80, _⟩ => ⟨S800000x64, .f32⟩
  | .hbm, ⟨81, _⟩ => ⟨S_, .f32⟩
  | .hbm, ⟨82, _⟩ => ⟨S800000x64, .f32⟩
  | .hbm, ⟨83, _⟩ => ⟨S800000x64, .f32⟩
  | .hbm, ⟨84, _⟩ => ⟨S800000x16, .f32⟩
  | .hbm, ⟨85, _⟩ => ⟨S1x16, .f32⟩
  | .hbm, ⟨86, _⟩ => ⟨S800000x16, .f32⟩
  | .hbm, ⟨87, _⟩ => ⟨S800000x16, .f32⟩
  | .hbm, ⟨88, _⟩ => ⟨S800000x16, .f32⟩
  | .hbm, ⟨89, _⟩ => ⟨S800000x16, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S100000x16, .f32⟩
  | .hbm, ⟨99, _⟩ => ⟨S100000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call0_cst : Ref sig .tc := ⟨.hbm, 45, rfl⟩
abbrev main_call0_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_cst : Ref sig .tc := ⟨.hbm, 52, rfl⟩
abbrev main_call1_v0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_3 : Ref sig .tc := ⟨.hbm, 61, rfl⟩
abbrev main_v35 : Ref sig .tc := ⟨.hbm, 62, rfl⟩
abbrev main_v36 : Ref sig .tc := ⟨.hbm, 63, rfl⟩
abbrev main_c_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_cst : Ref sig .tc := ⟨.hbm, 74, rfl⟩
abbrev main_call2_v0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call3_cst : Ref sig .tc := ⟨.hbm, 81, rfl⟩
abbrev main_call3_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_5 : Ref sig .tc := ⟨.hbm, 90, rfl⟩
abbrev main_v58 : Ref sig .tc := ⟨.hbm, 91, rfl⟩
abbrev main_v59 : Ref sig .tc := ⟨.hbm, 92, rfl⟩
abbrev main_c_6 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x8_S800000x16_S800000x16_S800000x40_d1 : Shape.Concatenates [S800000x8, S800000x16, S800000x16] S800000x40 1
  bcast_S800000x1_S800000x40_0_1 : S800000x1.BroadcastsInDim S800000x40 (![0, 1] : Fin 2 → Fin S800000x40.rank)
  bcast_S_S100000x16 : S_.BroadcastsInDim S100000x16 (![] : Fin 0 → Fin S100000x16.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S16_S1x16_1 : S16.BroadcastsInDim S1x16 (![1] : Fin 1 → Fin S1x16.rank)
  bcast_S1x16_S800000x16_0_1 : S1x16.BroadcastsInDim S800000x16 (![0, 1] : Fin 2 → Fin S800000x16.rank)
  bcast_S800000x1_S800000x16_0_1 : S800000x1.BroadcastsInDim S800000x16 (![0, 1] : Fin 2 → Fin S800000x16.rank)
  gather_S100000x16_S800000x1_S800000x16_1_0_n_n_0_1_116_wf : GatherDims.WF S100000x16 S800000x1 S800000x16 [1] [0] [] [0] [] 1 ![1, 16]
  dot_S800000x40_S40x64_S800000x64_1_0_0_1_n_n_wf : DotDims.WF S800000x40 S40x64 S800000x64 [1] [0] [0] [1] [] []
  dot_S800000x64_S64x64_S800000x64_1_0_0_1_n_n_wf : DotDims.WF S800000x64 S64x64 S800000x64 [1] [0] [0] [1] [] []
  dot_S800000x64_S64x16_S800000x16_1_0_0_1_n_n_wf : DotDims.WF S800000x64 S64x16 S800000x16 [1] [0] [0] [1] [] []
  scatter_S100000x16_S800000x1_S800000x16_1_0_0_1_wf : ScatterDims.WF S100000x16 S800000x1 S800000x16 [1] [0] [0] 1

variable [Facts₀]

def gather_S100000x16_S800000x1_S800000x16_1_0_n_n_0_1_116 : GatherDims S100000x16 S800000x1 S800000x16 where
  offsetDims := [1]
  collapsedSliceDims := [0]
  operandBatchingDims := []
  startIndicesBatchingDims := []
  startIndexMap := [0]
  indexVectorDim := 1
  sliceSizes := ![1, 16]
  wf := gather_S100000x16_S800000x1_S800000x16_1_0_n_n_0_1_116_wf
def dot_S800000x40_S40x64_S800000x64_1_0_0_1_n_n : DotDims S800000x40 S40x64 S800000x64 where
  lhsContracting := [1]
  rhsContracting := [0]
  lhsNonContracting := [0]
  rhsNonContracting := [1]
  lhsBatch := []
  rhsBatch := []
  wf := dot_S800000x40_S40x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x16_S800000x16_1_0_0_1_n_n : DotDims S800000x64 S64x16 S800000x16 where
  lhsContracting := [1]
  rhsContracting := [0]
  lhsNonContracting := [0]
  rhsNonContracting := [1]
  lhsBatch := []
  rhsBatch := []
  wf := dot_S800000x64_S64x16_S800000x16_1_0_0_1_n_n_wf
def scatter_S100000x16_S800000x1_S800000x16_1_0_0_1 : ScatterDims S100000x16 S800000x1 S800000x16 where
  updateWindowDims := [1]
  insertedWindowDims := [0]
  scatterDimsToOperandDims := [0]
  indexVectorDim := 1
  wf := scatter_S100000x16_S800000x1_S800000x16_1_0_0_1_wf

class Facts : Prop extends Facts₀ where

variable [Facts]
-- ==== Proof.FrameK.lean ====
/-
  The frame of the program: its @main is forty-seven host operations, one launched region over forty grid points,
  then twenty-five host operations. At each grid point the body loads its seven input blocks whole (the block of
  20000 edge rows and the six weight and bias arrays, whole at every point), computes, and stores one whole output
  block; it keeps nothing between points. So the proof data says: after the body every input buffer holds its block
  and the output buffer holds the one stored value; the invariant is the untouched rest. No host operation writes an
  argument array and no window stages one, so every argument ends as launched. Stated for any float instance.
-/
import proofs.«415916_j17025250362097_3_alg».proof.Proof.Gen.Kernel.Launch
import proofs.«415916_j17025250362097_3_alg».proof.Proof.Gen.Kernel.Skeleton
import proofs.«415916_j17025250362097_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch memory after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The result buffers of the host operations before the region, in order. -/
abbrev wr0 : List (Ref sig .tc) := [main_v0, main_c, main_v1, main_v2, main_c_0, main_v3, main_v4, main_v5, main_v6, main_v7, main_v8, main_v9, main_c_1, main_v10, main_v11, main_c_2, main_v12, main_v13, main_v14, main_v15, main_v16, main_v17, main_v18, main_v19, main_v20, main_v21, main_v22, main_v23, main_v24, main_cst, main_v25, main_v26, main_cst_3, main_v27, main_v28, main_v29, main_v30, main_v31, main_cst_4, main_v32, main_v33, main_cst_5, main_v34, main_v35, main_v36, main_v37, main_v38]
/-- The result buffers of the host operations after the region, in order. -/
abbrev wr1 : List (Ref sig .tc) := [main_v40, main_v41, main_v42, main_v43, main_cst_6, main_v44, main_c_7, main_v45, main_v46, main_c_8, main_v47, main_v48, main_v49, main_v50, main_v51, main_c_9, main_v52, main_v53, main_c_10, main_v54, main_v55, main_v56, main_v57, main_v58, main_v59]

set_option maxHeartbeats 2000000 in
/-- Each operation before the region writes one of the listed buffers. -/
theorem hostOps0_writes : (List.flatten [hostOps0] : List (HloOp τ sig (Elt F))).Forall fun op =>
    op.writes ⊆ (wr0.map (Proc.devRef (τ := τ) .tc)).toFinset := by
  simp only [hostOps0, List.flatten_cons, List.flatten_nil, List.append_nil, List.cons_append, List.nil_append,
    List.Forall, StableHlo.nullary_writes, StableHlo.unary_writes, StableHlo.binary_writes, StableHlo.ternary_writes,
    StableHlo.quaternary_writes, StableHlo.nary_writes, Finset.singleton_subset_iff]
  repeat' apply And.intro
  all_goals exact List.mem_toFinset.mpr (List.mem_map_of_mem (by decide))

set_option maxHeartbeats 2000000 in
/-- Each operation after the region writes one of the listed buffers. -/
theorem hostOps1_writes : (List.flatten [hostOps1] : List (HloOp τ sig (Elt F))).Forall fun op =>
    op.writes ⊆ (wr1.map (Proc.devRef (τ := τ) .tc)).toFinset := by
  simp only [hostOps1, List.flatten_cons, List.flatten_nil, List.append_nil, List.cons_append, List.nil_append,
    List.Forall, StableHlo.nullary_writes, StableHlo.unary_writes, StableHlo.binary_writes, StableHlo.ternary_writes,
    StableHlo.quaternary_writes, StableHlo.nary_writes, Finset.singleton_subset_iff]
  repeat' apply And.intro
  all_goals exact List.mem_toFinset.mpr (List.mem_map_of_mem (by decide))

/-- No operation after the region writes a staged array: none of the eight is a listed result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  have hsub := (List.forall_iff_forall_mem.mp (hostOps1_writes (F := F))) op
    (by simpa only [List.flatten_cons, List.flatten_nil, List.append_nil] using hop)
  obtain ⟨y, hy, he⟩ := List.mem_map.mp (List.mem_toFinset.mp (hsub hmem))
  have hyw : Pipeline.arrRef spec0 w = y := (Proc.devRef_injective _ he).symm
  exact (by decide : ∀ w, Pipeline.arrRef spec0 w ∉ wr1) w (hyw ▸ hy)

/-- A buffer that is no listed result of the operations before the region is found as launched. -/
theorem V_kept (c : Dev nD) (b : Ref sig .tc) (h : b ∉ wr0) : V m c b = m ((c : Thread nD τ).loc b) :=
  StableHlo.after_of_writes_sub _ _ hostOps0_writes h

/-- A buffer no host operation writes and no window stages ends as launched. -/
theorem W_kept (dats : (p : Fin _) → (c : Dev nD) → Dat τ (Elt F) Unit ℕ (UR sig nD τ) ℕ (cfgs p) c) (c : Dev nD) (b : Ref sig .tc)
    (h0 : b ∉ wr0) (h1 : b ∉ wr1) (hne : ∀ w, Pipeline.arrRef spec0 w ≠ b) :
    Pipeline.afterTail₀ cfgs dats 0 (V0 m) [hostOps1] c b = m ((c : Thread nD τ).loc b) := by
  unfold Pipeline.afterTail₀
  rw [StableHlo.after_of_writes_sub _ _ hostOps1_writes h1, Pipeline.withArrays_of_ne _ c (V0 m c) _ b hne]
  exact V_kept m c b h0

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the launch theorem's post, every argument array ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨
    ((h c).2 main_arg0 (Pipeline.mem_restRefs_of main_arg0 (by decide) (by decide))).trans (W_kept m dats c main_arg0 (by decide) (by decide) (by decide)),
    ((h c).2 main_arg1 (Pipeline.mem_restRefs_of main_arg1 (by decide) (by decide))).trans (W_kept m dats c main_arg1 (by decide) (by decide) (by decide)),
    ((h c).2 main_arg2 (Pipeline.mem_restRefs_of main_arg2 (by decide) (by decide))).trans (W_kept m dats c main_arg2 (by decide) (by decide) (by decide)),
    ((h c).2 main_arg3 (Pipeline.mem_restRefs_of main_arg3 (by decide) (by decide))).trans (W_kept m dats c main_arg3 (by decide) (by decide) (by decide)),
    ((h c).2 main_arg4 (Pipeline.mem_restRefs_of main_arg4 (by decide) (by decide))).trans (W_kept m dats c main_arg4 (by decide) (by decide) (by decide)),
    ((h c).2 main_arg5 (Pipeline.mem_restRefs_of main_arg5 (by decide) (by decide))).trans (W_kept m dats c main_arg5 (by decide) (by decide) (by decide)),
    ((h c).2 main_arg6 (Pipeline.mem_restRefs_of main_arg6 (by decide) (by decide))).trans (W_kept m dats c main_arg6 (by decide) (by decide) (by decide)),
    ((h c).2 main_arg7 (Pipeline.mem_restRefs_of main_arg7 (by decide) (by decide))).trans (W_kept m dats c main_arg7 (by decide) (by decide) (by decide)),
    ((h c).2 main_arg8 (Pipeline.mem_restRefs_of main_arg8 (by decide) (by decide))).trans (W_kept m dats c main_arg8 (by decide) (by decide) (by decide)),
    ((h c).2 main_arg9 (Pipeline.mem_restRefs_of main_arg9 (by decide) (by decide))).trans (W_kept m dats c main_arg9 (by decide) (by decide) (by decide)),
    ((h c).2 main_arg10 (Pipeline.mem_restRefs_of main_arg10 (by decide) (by decide))).trans (W_kept m dats c main_arg10 (by decide) (by decide) (by decide)),
    ((h c).2 main_arg11 (Pipeline.mem_restRefs_of main_arg11 (by decide) (by decide))).trans (W_kept m dats c main_arg11 (by decide) (by decide) (by decide)),
    ((h c).2 main_arg12 (Pipeline.mem_restRefs_of main_arg12 (by decide) (by decide))).trans (W_kept m dats c main_arg12 (by decide) (by decide) (by decide)),
    ((h c).2 main_arg13 (Pipeline.mem_restRefs_of main_arg13 (by decide) (by decide))).trans (W_kept m dats c main_arg13 (by decide) (by decide) (by decide)),
    ((h c).2 main_arg14 (Pipeline.mem_restRefs_of main_arg14 (by decide) (by decide))).trans (W_kept m dats c main_arg14 (by decide) (by decide) (by decide)),
    ((h c).2 main_arg15 (Pipeline.mem_restRefs_of main_arg15 (by decide) (by decide))).trans (W_kept m dats c main_arg15 (by decide) (by decide) (by decide)),
    ((h c).2 main_arg16 (Pipeline.mem_restRefs_of main_arg16 (by decide) (by decide))).trans (W_kept m dats c main_arg16 (by decide) (by decide) (by decide))⟩) h

/-! ## What the body leaves in the output window's buffer -/

abbrev r0 : Rect S20000x40 := Rect.unit (s := S20000x40) ![0, 0] S20000x40.size inb_S20000x40_S20000x40_0_0
abbrev r1 : Rect S40x128 := Rect.unit (s := S40x128) ![0, 0] S40x128.size inb_S40x128_S40x128_0_0
abbrev r2 : Rect S128 := Rect.unit (s := S128) ![0] S128.size inb_S128_S128_0
abbrev r3 : Rect S128x128 := Rect.unit (s := S128x128) ![0, 0] S128x128.size inb_S128x128_S128x128_0_0
abbrev r4 : Rect S128 := Rect.unit (s := S128) ![0] S128.size inb_S128_S128_0
abbrev r5 : Rect S128x32 := Rect.unit (s := S128x32) ![0, 0] S128x32.size inb_S128x32_S128x32_0_0
abbrev r6 : Rect S32 := Rect.unit (s := S32) ![0] S32.size inb_S32_S32_0
abbrev r7 : Rect S20000x32 := Rect.unit (s := S20000x32) ![0, 0] S20000x32.size inb_S20000x32_S20000x32_0_0

/-- The output buffer after the body: its one store, of the body's arithmetic on the seven loaded blocks. -/
def out7 (x0 : Vec F S20000x40 .f32) (x1 : Vec F S40x128 .bf16) (x2 : Vec F S128 .f32) (x3 : Vec F S128x128 .bf16) (x4 : Vec F S128 .f32) (x5 : Vec F S128x32 .bf16) (x6 : Vec F S32 .f32) : Vec F S20000x32 .f32 :=
  View.canon [⟨r7, k0_pay1 (View.ld x0 r0) (View.ld x1 r1) (View.ld x2 r2) (View.ld x3 r3) (View.ld x4 r4) (View.ld x5 r5) (View.ld x6 r6)⟩]

/-- The one store covers the buffer. -/
theorem cover7 (p0 : Vec F S20000x32 .f32) (y : S20000x32.Idx) :
    ∃ pc ∈ ([⟨r7, p0⟩] : List (View.Piece (Elt F) S20000x32 .f32)), y ∈ pc.1.set :=
  View.cover_of_tiled [⟨r7, p0⟩] S20000x32.size (by rfl) y

/-! ## The body's triple -/

set_option maxHeartbeats 1000000 in
/-- The body on whole staging memrefs, the inputs at contents `xW` and the output at anything, ends with the inputs as
    they were and the output at `out7` of them. -/
theorem sound_kernel (c : Dev nD) (E : Set ℕ) (i : grid0.Coords)
    (arg1 : Memref sig .tc .vmem S20000x40 .f32) (harg1 : arg1.IsWhole) (arg2 : Memref sig .tc .vmem S40x128 .bf16) (harg2 : arg2.IsWhole) (arg3 : Memref sig .tc .vmem S128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x32 .bf16) (harg6 : arg6.IsWhole) (arg7 : Memref sig .tc .vmem S32 .f32) (harg7 : arg7.IsWhole) (arg8 : Memref sig .tc .vmem S20000x32 .f32) (harg8 : arg8.IsWhole)
    (x0 : Vec F S20000x40 .f32) (x1 : Vec F S40x128 .bf16) (x2 : Vec F S128 .f32) (x3 : Vec F S128x128 .bf16) (x4 : Vec F S128 .f32) (x5 : Vec F S128x32 .bf16) (x6 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- After the body at point `t`: each input buffer at its block, the output buffer at `out7` of the input blocks; the
    invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every staged array ends at what the proof data computes, and every
    other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (run_main m ρ)

end Cert.Kernel.Hand

end
-- ==== Proof.FrameKI.lean ====
/-
  The frame of the program: its @main is forty-seven host operations, one launched region over forty grid points,
  then twenty-five host operations. At each grid point the body loads its seven input blocks whole (the block of
  20000 edge rows and the six weight and bias arrays, whole at every point), computes, and stores one whole output
  block; it keeps nothing between points. So the proof data says: after the body every input buffer holds its block
  and the output buffer holds the one stored value; the invariant is the untouched rest. No host operation writes an
  argument array and no window stages one, so every argument ends as launched. Stated for any float instance.
-/
import proofs.«415916_j17025250362097_3_alg».proof.Proof.Gen.KernelIdeal.Launch
import proofs.«415916_j17025250362097_3_alg».proof.Proof.Gen.KernelIdeal.Skeleton
import proofs.«415916_j17025250362097_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch memory after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The result buffers of the host operations before the region, in order. -/
abbrev wr0 : List (Ref sig .tc) := [main_v0, main_c, main_v1, main_v2, main_c_0, main_v3, main_v4, main_v5, main_v6, main_v7, main_v8, main_v9, main_c_1, main_v10, main_v11, main_c_2, main_v12, main_v13, main_v14, main_v15, main_v16, main_v17, main_v18, main_v19, main_v20, main_v21, main_v22, main_v23, main_v24, main_cst, main_v25, main_v26, main_cst_3, main_v27, main_v28, main_v29, main_v30, main_v31, main_cst_4, main_v32, main_v33, main_cst_5, main_v34, main_v35, main_v36, main_v37, main_v38]
/-- The result buffers of the host operations after the region, in order. -/
abbrev wr1 : List (Ref sig .tc) := [main_v40, main_v41, main_v42, main_v43, main_cst_6, main_v44, main_c_7, main_v45, main_v46, main_c_8, main_v47, main_v48, main_v49, main_v50, main_v51, main_c_9, main_v52, main_v53, main_c_10, main_v54, main_v55, main_v56, main_v57, main_v58, main_v59]

set_option maxHeartbeats 2000000 in
/-- Each operation before the region writes one of the listed buffers. -/
theorem hostOps0_writes : (List.flatten [hostOps0] : List (HloOp τ sig (Elt F))).Forall fun op =>
    op.writes ⊆ (wr0.map (Proc.devRef (τ := τ) .tc)).toFinset := by
  simp only [hostOps0, List.flatten_cons, List.flatten_nil, List.append_nil, List.cons_append, List.nil_append,
    List.Forall, StableHlo.nullary_writes, StableHlo.unary_writes, StableHlo.binary_writes, StableHlo.ternary_writes,
    StableHlo.quaternary_writes, StableHlo.nary_writes, Finset.singleton_subset_iff]
  repeat' apply And.intro
  all_goals exact List.mem_toFinset.mpr (List.mem_map_of_mem (by decide))

set_option maxHeartbeats 2000000 in
/-- Each operation after the region writes one of the listed buffers. -/
theorem hostOps1_writes : (List.flatten [hostOps1] : List (HloOp τ sig (Elt F))).Forall fun op =>
    op.writes ⊆ (wr1.map (Proc.devRef (τ := τ) .tc)).toFinset := by
  simp only [hostOps1, List.flatten_cons, List.flatten_nil, List.append_nil, List.cons_append, List.nil_append,
    List.Forall, StableHlo.nullary_writes, StableHlo.unary_writes, StableHlo.binary_writes, StableHlo.ternary_writes,
    StableHlo.quaternary_writes, StableHlo.nary_writes, Finset.singleton_subset_iff]
  repeat' apply And.intro
  all_goals exact List.mem_toFinset.mpr (List.mem_map_of_mem (by decide))

/-- No operation after the region writes a staged array: none of the eight is a listed result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  have hsub := (List.forall_iff_forall_mem.mp (hostOps1_writes (F := F))) op
    (by simpa only [List.flatten_cons, List.flatten_nil, List.append_nil] using hop)
  obtain ⟨y, hy, he⟩ := List.mem_map.mp (List.mem_toFinset.mp (hsub hmem))
  have hyw : Pipeline.arrRef spec0 w = y := (Proc.devRef_injective _ he).symm
  exact (by decide : ∀ w, Pipeline.arrRef spec0 w ∉ wr1) w (hyw ▸ hy)

/-- A buffer that is no listed result of the operations before the region is found as launched. -/
theorem V_kept (c : Dev nD) (b : Ref sig .tc) (h : b ∉ wr0) : V m c b = m ((c : Thread nD τ).loc b) :=
  StableHlo.after_of_writes_sub _ _ hostOps0_writes h

/-- A buffer no host operation writes and no window stages ends as launched. -/
theorem W_kept (dats : (p : Fin _) → (c : Dev nD) → Dat τ (Elt F) Unit ℕ (UR sig nD τ) ℕ (cfgs p) c) (c : Dev nD) (b : Ref sig .tc)
    (h0 : b ∉ wr0) (h1 : b ∉ wr1) (hne : ∀ w, Pipeline.arrRef spec0 w ≠ b) :
    Pipeline.afterTail₀ cfgs dats 0 (V0 m) [hostOps1] c b = m ((c : Thread nD τ).loc b) := by
  unfold Pipeline.afterTail₀
  rw [StableHlo.after_of_writes_sub _ _ hostOps1_writes h1, Pipeline.withArrays_of_ne _ c (V0 m c) _ b hne]
  exact V_kept m c b h0

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the launch theorem's post, every argument array ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨
    ((h c).2 main_arg0 (Pipeline.mem_restRefs_of main_arg0 (by decide) (by decide))).trans (W_kept m dats c main_arg0 (by decide) (by decide) (by decide)),
    ((h c).2 main_arg1 (Pipeline.mem_restRefs_of main_arg1 (by decide) (by decide))).trans (W_kept m dats c main_arg1 (by decide) (by decide) (by decide)),
    ((h c).2 main_arg2 (Pipeline.mem_restRefs_of main_arg2 (by decide) (by decide))).trans (W_kept m dats c main_arg2 (by decide) (by decide) (by decide)),
    ((h c).2 main_arg3 (Pipeline.mem_restRefs_of main_arg3 (by decide) (by decide))).trans (W_kept m dats c main_arg3 (by decide) (by decide) (by decide)),
    ((h c).2 main_arg4 (Pipeline.mem_restRefs_of main_arg4 (by decide) (by decide))).trans (W_kept m dats c main_arg4 (by decide) (by decide) (by decide)),
    ((h c).2 main_arg5 (Pipeline.mem_restRefs_of main_arg5 (by decide) (by decide))).trans (W_kept m dats c main_arg5 (by decide) (by decide) (by decide)),
    ((h c).2 main_arg6 (Pipeline.mem_restRefs_of main_arg6 (by decide) (by decide))).trans (W_kept m dats c main_arg6 (by decide) (by decide) (by decide)),
    ((h c).2 main_arg7 (Pipeline.mem_restRefs_of main_arg7 (by decide) (by decide))).trans (W_kept m dats c main_arg7 (by decide) (by decide) (by decide)),
    ((h c).2 main_arg8 (Pipeline.mem_restRefs_of main_arg8 (by decide) (by decide))).trans (W_kept m dats c main_arg8 (by decide) (by decide) (by decide)),
    ((h c).2 main_arg9 (Pipeline.mem_restRefs_of main_arg9 (by decide) (by decide))).trans (W_kept m dats c main_arg9 (by decide) (by decide) (by decide)),
    ((h c).2 main_arg10 (Pipeline.mem_restRefs_of main_arg10 (by decide) (by decide))).trans (W_kept m dats c main_arg10 (by decide) (by decide) (by decide)),
    ((h c).2 main_arg11 (Pipeline.mem_restRefs_of main_arg11 (by decide) (by decide))).trans (W_kept m dats c main_arg11 (by decide) (by decide) (by decide)),
    ((h c).2 main_arg12 (Pipeline.mem_restRefs_of main_arg12 (by decide) (by decide))).trans (W_kept m dats c main_arg12 (by decide) (by decide) (by decide)),
    ((h c).2 main_arg13 (Pipeline.mem_restRefs_of main_arg13 (by decide) (by decide))).trans (W_kept m dats c main_arg13 (by decide) (by decide) (by decide)),
    ((h c).2 main_arg14 (Pipeline.mem_restRefs_of main_arg14 (by decide) (by decide))).trans (W_kept m dats c main_arg14 (by decide) (by decide) (by decide)),
    ((h c).2 main_arg15 (Pipeline.mem_restRefs_of main_arg15 (by decide) (by decide))).trans (W_kept m dats c main_arg15 (by decide) (by decide) (by decide)),
    ((h c).2 main_arg16 (Pipeline.mem_restRefs_of main_arg16 (by decide) (by decide))).trans (W_kept m dats c main_arg16 (by decide) (by decide) (by decide))⟩) h

/-! ## What the body leaves in the output window's buffer -/

abbrev r0 : Rect S20000x40 := Rect.unit (s := S20000x40) ![0, 0] S20000x40.size inb_S20000x40_S20000x40_0_0
abbrev r1 : Rect S40x128 := Rect.unit (s := S40x128) ![0, 0] S40x128.size inb_S40x128_S40x128_0_0
abbrev r2 : Rect S128 := Rect.unit (s := S128) ![0] S128.size inb_S128_S128_0
abbrev r3 : Rect S128x128 := Rect.unit (s := S128x128) ![0, 0] S128x128.size inb_S128x128_S128x128_0_0
abbrev r4 : Rect S128 := Rect.unit (s := S128) ![0] S128.size inb_S128_S128_0
abbrev r5 : Rect S128x32 := Rect.unit (s := S128x32) ![0, 0] S128x32.size inb_S128x32_S128x32_0_0
abbrev r6 : Rect S32 := Rect.unit (s := S32) ![0] S32.size inb_S32_S32_0
abbrev r7 : Rect S20000x32 := Rect.unit (s := S20000x32) ![0, 0] S20000x32.size inb_S20000x32_S20000x32_0_0

/-- The output buffer after the body: its one store, of the body's arithmetic on the seven loaded blocks. -/
def out7 (x0 : Vec F S20000x40 .f32) (x1 : Vec F S40x128 .bf16) (x2 : Vec F S128 .f32) (x3 : Vec F S128x128 .bf16) (x4 : Vec F S128 .f32) (x5 : Vec F S128x32 .bf16) (x6 : Vec F S32 .f32) : Vec F S20000x32 .f32 :=
  View.canon [⟨r7, k0_pay1 (View.ld x0 r0) (View.ld x1 r1) (View.ld x2 r2) (View.ld x3 r3) (View.ld x4 r4) (View.ld x5 r5) (View.ld x6 r6)⟩]

/-- The one store covers the buffer. -/
theorem cover7 (p0 : Vec F S20000x32 .f32) (y : S20000x32.Idx) :
    ∃ pc ∈ ([⟨r7, p0⟩] : List (View.Piece (Elt F) S20000x32 .f32)), y ∈ pc.1.set :=
  View.cover_of_tiled [⟨r7, p0⟩] S20000x32.size (by rfl) y

/-! ## The body's triple -/

set_option maxHeartbeats 1000000 in
/-- The body on whole staging memrefs, the inputs at contents `xW` and the output at anything, ends with the inputs as
    they were and the output at `out7` of them. -/
theorem sound_kernel (c : Dev nD) (E : Set ℕ) (i : grid0.Coords)
    (arg1 : Memref sig .tc .vmem S20000x40 .f32) (harg1 : arg1.IsWhole) (arg2 : Memref sig .tc .vmem S40x128 .bf16) (harg2 : arg2.IsWhole) (arg3 : Memref sig .tc .vmem S128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x32 .bf16) (harg6 : arg6.IsWhole) (arg7 : Memref sig .tc .vmem S32 .f32) (harg7 : arg7.IsWhole) (arg8 : Memref sig .tc .vmem S20000x32 .f32) (harg8 : arg8.IsWhole)
    (x0 : Vec F S20000x40 .f32) (x1 : Vec F S40x128 .bf16) (x2 : Vec F S128 .f32) (x3 : Vec F S128x128 .bf16) (x4 : Vec F S128 .f32) (x5 : Vec F S128x32 .bf16) (x6 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- After the body at point `t`: each input buffer at its block, the output buffer at `out7` of the input blocks; the
    invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every staged array ends at what the proof data computes, and every
    other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (run_main m ρ)

end Cert.KernelIdeal.Hand

end
-- ==== Proof.Spec.lean ====
/-
  The mathematics of the certificate, with no program in sight: a three-layer perceptron on one row of extended reals,
  and the fact that running TWO such perceptrons on the same row is ONE perceptron whose first layer puts the two
  first-layer matrices side by side and whose later layers are block diagonal (zero blocks off the diagonal): the
  zero blocks contribute `x * 0 = 0` to every sum, which holds for every extended real, so nothing has to be finite.
-/
import Idealize.ShloMosaic.PureOps.Ideal
import Mathlib.Algebra.BigOperators.Fin

noncomputable section

open scoped BigOperators

namespace Cert.Spec

/-- One dense layer on a row: `(x W + b) j = (∑ k, x k * W k j) + b j`. -/
def dense {K J : ℕ} (x : Fin K → EReal) (W : Fin K → Fin J → EReal) (b : Fin J → EReal) (j : Fin J) : EReal :=
  (∑ k, x k * W k j) + b j

/-- The rectifier on a row. -/
def relu {J : ℕ} (h : Fin J → EReal) (j : Fin J) : EReal := max (h j) 0

/-- Three dense layers with a rectifier after the first two. -/
def mlp3 {K0 K1 K2 K3 : ℕ} (x : Fin K0 → EReal) (W0 : Fin K0 → Fin K1 → EReal) (b0 : Fin K1 → EReal)
    (W1 : Fin K1 → Fin K2 → EReal) (b1 : Fin K2 → EReal) (W2 : Fin K2 → Fin K3 → EReal) (b2 : Fin K3 → EReal) :
    Fin K3 → EReal :=
  dense (relu (dense (relu (dense x W0 b0)) W1 b1)) W2 b2

/-- Two rows side by side: the first `A` entries are `f`'s, the rest `g`'s. -/
def beside {A B N : ℕ} (hN : A + B = N) (f : Fin A → EReal) (g : Fin B → EReal) (j : Fin N) : EReal :=
  if h : j.val < A then f ⟨j.val, h⟩ else g ⟨j.val - A, by omega⟩

/-- Two matrices with the same rows side by side. -/
def catCols {K A B N : ℕ} (hN : A + B = N) (P : Fin K → Fin A → EReal) (Q : Fin K → Fin B → EReal) :
    Fin K → Fin N → EReal := fun k => beside hN (P k) (Q k)

/-- The block-diagonal matrix of `P` and `Q`: zero off the two diagonal blocks. -/
def blockDiag {K1 K2 K A B N : ℕ} (hK : K1 + K2 = K) (hN : A + B = N) (P : Fin K1 → Fin A → EReal)
    (Q : Fin K2 → Fin B → EReal) : Fin K → Fin N → EReal := fun k j =>
  if hk : k.val < K1 then (if hj : j.val < A then P ⟨k.val, hk⟩ ⟨j.val, hj⟩ else 0)
  else (if hj : j.val < A then 0 else Q ⟨k.val - K1, by omega⟩ ⟨j.val - A, by omega⟩)

/-! ### Reading the two halves of a row laid side by side -/

theorem beside_castAdd {A B : ℕ} (f : Fin A → EReal) (g : Fin B → EReal) (i : Fin A) :
    beside (N := A + B) rfl f g (Fin.castAdd B i) = f i := by
  simp [beside]

theorem beside_natAdd {A B : ℕ} (f : Fin A → EReal) (g : Fin B → EReal) (i : Fin B) :
    beside (N := A + B) rfl f g (Fin.natAdd A i) = g i := by
  simp [beside]

/-- The rectifier acts entrywise, so it commutes with laying two rows side by side. -/
theorem relu_beside {A B N : ℕ} (hN : A + B = N) (f : Fin A → EReal) (g : Fin B → EReal) :
    relu (beside hN f g) = beside hN (relu f) (relu g) := by
  funext j
  unfold relu beside
  split_ifs <;> rfl

/-- A dense layer whose matrix is two matrices side by side (and whose bias is two biases side by side) is the two
dense layers side by side: column `j` of the result only reads column `j` of the matrix. -/
theorem dense_catCols {K A B N : ℕ} (hN : A + B = N) (x : Fin K → EReal) (P : Fin K → Fin A → EReal)
    (Q : Fin K → Fin B → EReal) (b : Fin A → EReal) (c : Fin B → EReal) :
    dense x (catCols hN P Q) (beside hN b c) = beside hN (dense x P b) (dense x Q c) := by
  funext j
  unfold dense catCols beside
  split_ifs <;> rfl

/-- A dense layer with a block-diagonal matrix, fed two rows side by side, is the two dense layers side by side:
the sum over the `K1 + K2` inputs splits into the first `K1` and the last `K2`, and the half that meets a zero
block is a sum of `x * 0 = 0`. -/
theorem dense_blockDiag {K1 K2 K A B N : ℕ} (hK : K1 + K2 = K) (hN : A + B = N) (f : Fin K1 → EReal)
    (g : Fin K2 → EReal) (P : Fin K1 → Fin A → EReal) (Q : Fin K2 → Fin B → EReal) (b : Fin A → EReal)
    (c : Fin B → EReal) :
    dense (beside hK f g) (blockDiag hK hN P Q) (beside hN b c) = beside hN (dense f P b) (dense g Q c) := by
  subst hK
  subst hN
  funext j
  unfold dense
  rw [Fin.sum_univ_add]
  simp only [beside_castAdd, beside_natAdd]
  by_cases hj : j.val < A
  · simp [beside, blockDiag, hj]
  · simp [beside, blockDiag, hj]

/-- The fused perceptron is the two perceptrons side by side. -/
theorem fused_eq (x : Fin 40 → EReal)
    (fW0 tW0 : Fin 40 → Fin 64 → EReal) (fb0 tb0 : Fin 64 → EReal)
    (fW1 tW1 : Fin 64 → Fin 64 → EReal) (fb1 tb1 : Fin 64 → EReal)
    (fW2 tW2 : Fin 64 → Fin 16 → EReal) (fb2 tb2 : Fin 16 → EReal) :
    mlp3 x (catCols (N := 128) (by norm_num) fW0 tW0) (beside (N := 128) (by norm_num) fb0 tb0)
        (blockDiag (K := 128) (N := 128) (by norm_num) (by norm_num) fW1 tW1) (beside (N := 128) (by norm_num) fb1 tb1)
        (blockDiag (K := 128) (N := 32) (by norm_num) (by norm_num) fW2 tW2) (beside (N := 32) (by norm_num) fb2 tb2)
      = beside (N := 32) (by norm_num) (mlp3 x fW0 fb0 fW1 fb1 fW2 fb2) (mlp3 x tW0 tb0 tW1 tb1 tW2 tb2) := by
  unfold mlp3
  rw [dense_catCols, relu_beside, dense_blockDiag, relu_beside, dense_blockDiag]

end Cert.Spec

end
-- ==== Proof.EdgeRow.lean ====
/-
  One row of the edge input: eight feature entries, then sixteen entries of the source node's coordinates, then
  sixteen of the target node's. Multiplying every piece by one scalar is multiplying the joined row by it.
-/
import Idealize.ShloMosaic.PureOps.Ideal

noncomputable section

namespace Cert.EdgeRow

/-- Entry `k` of the row `[feat | xf | xt]` of widths 8, 16, 16. -/
def pick (feat : Fin 8 → EReal) (xf xt : Fin 16 → EReal) (k : Fin 40) : EReal :=
  if h8 : k.val < 8 then feat ⟨k.val, h8⟩
  else if h24 : k.val < 24 then xf ⟨k.val - 8, by omega⟩ else xt ⟨k.val - 24, by omega⟩

/-- Scaling the three pieces by one factor scales the joined row. -/
theorem pick_mul (feat : Fin 8 → EReal) (xf xt : Fin 16 → EReal) (s : EReal) (k : Fin 40) :
    pick (fun a => feat a * s) (fun a => xf a * s) (fun a => xt a * s) k = pick feat xf xt k * s := by
  unfold pick; split_ifs <;> rfl

end Cert.EdgeRow

end
-- ==== Proof.Stages.lean ====
/-
  Joined arrays read at an index, over literal rank-1 and rank-2 shapes and for any evidence of the shape relation:
  two matrices side by side, two vectors end to end, the block-diagonal matrix built from two side-by-side joins
  stacked on each other, and the three-piece edge row.
-/
import Idealize.ShloMosaic.Lib.Pipeline.Value
import Idealize.ShloMosaic.Lib.ValueIdx
import proofs.«415916_j17025250362097_3_alg».proof.Proof.Spec
import proofs.«415916_j17025250362097_3_alg».proof.Proof.EdgeRow

noncomputable section

namespace Cert.Stages

open Idealize.ShloMosaic Idealize.ShloMosaic.ValueIdx

/-- The rank-2 shape `[a, b]`. -/
abbrev Sh2 (a b : ℕ) : Shape := ⟨2, ![a, b]⟩
/-- The rank-1 shape `[a]`. -/
abbrev Sh1 (a : ℕ) : Shape := ⟨1, ![a]⟩

/-- Two matrices with the same rows, joined along the columns, at row `k` and column `j`. -/
theorem concat_cols_apply {K A B N : ℕ} (hN : A + B = N) (P : (Sh2 K A).Idx → EReal) (Q : (Sh2 K B).Idx → EReal)
    (h : Shape.Concatenates [Sh2 K A, Sh2 K B] (Sh2 K N) 1) (k : Fin K) (j : Fin N) :
    concatenate (Sh2 K N) 1 [⟨Sh2 K A, P⟩, ⟨Sh2 K B, Q⟩] h (ix2 k j)
      = Cert.Spec.catCols hN (fun k j => P (ix2 k j)) (fun k j => Q (ix2 k j)) k j := by
  unfold Cert.Spec.catCols Cert.Spec.beside
  by_cases hj : j.val < A
  · rw [dif_pos hj]
    refine concatenate_pair_apply_left (1 : Fin 2) P Q h (ix2 k j) rfl (ix2 k ⟨j.val, hj⟩) ?_
    intro b
    match b with
    | ⟨0, _⟩ => rfl
    | ⟨1, _⟩ => rfl
  · rw [dif_neg hj]
    refine concatenate_pair_apply_right (1 : Fin 2) P Q h (ix2 k j) rfl rfl (ix2 k ⟨j.val - A, by omega⟩) ?_ ?_
    · intro b hb
      match b, hb with
      | ⟨0, _⟩, _ => rfl
      | ⟨1, _⟩, hb => exact absurd rfl hb
    · show (j.val - A) + A = j.val
      omega

/-- Two vectors joined end to end, at entry `j`. -/
theorem concat_vec_apply {A B N : ℕ} (hN : A + B = N) (f : (Sh1 A).Idx → EReal) (g : (Sh1 B).Idx → EReal)
    (h : Shape.Concatenates [Sh1 A, Sh1 B] (Sh1 N) 0) (j : Fin N) :
    concatenate (Sh1 N) 0 [⟨Sh1 A, f⟩, ⟨Sh1 B, g⟩] h (ix1 j)
      = Cert.Spec.beside hN (fun j => f (ix1 j)) (fun j => g (ix1 j)) j := by
  unfold Cert.Spec.beside
  by_cases hj : j.val < A
  · rw [dif_pos hj]
    refine concatenate_pair_apply_left (0 : Fin 1) f g h (ix1 j) rfl (ix1 ⟨j.val, hj⟩) ?_
    intro b
    match b with
    | ⟨0, _⟩ => rfl
  · rw [dif_neg hj]
    refine concatenate_pair_apply_right (0 : Fin 1) f g h (ix1 j) rfl rfl (ix1 ⟨j.val - A, by omega⟩) ?_ ?_
    · intro b hb
      match b, hb with
      | ⟨0, _⟩, hb => exact absurd rfl hb
    · show (j.val - A) + A = j.val
      omega

/-- `[P | Z1]` stacked on `[Z2 | Q]` with `Z1`, `Z2` zero is the block-diagonal matrix of `P` and `Q`. -/
theorem blockDiag_apply {K1 K2 K A B N : ℕ} (hK : K1 + K2 = K) (hN : A + B = N)
    (P : (Sh2 K1 A).Idx → EReal) (Q : (Sh2 K2 B).Idx → EReal)
    (Z1 : (Sh2 K1 B).Idx → EReal) (Z2 : (Sh2 K2 A).Idx → EReal) (hZ1 : ∀ i, Z1 i = 0) (hZ2 : ∀ i, Z2 i = 0)
    (h1 : Shape.Concatenates [Sh2 K1 A, Sh2 K1 B] (Sh2 K1 N) 1)
    (h2 : Shape.Concatenates [Sh2 K2 A, Sh2 K2 B] (Sh2 K2 N) 1)
    (h3 : Shape.Concatenates [Sh2 K1 N, Sh2 K2 N] (Sh2 K N) 0) (k : Fin K) (j : Fin N) :
    concatenate (Sh2 K N) 0
        [⟨Sh2 K1 N, concatenate (Sh2 K1 N) 1 [⟨Sh2 K1 A, P⟩, ⟨Sh2 K1 B, Z1⟩] h1⟩,
         ⟨Sh2 K2 N, concatenate (Sh2 K2 N) 1 [⟨Sh2 K2 A, Z2⟩, ⟨Sh2 K2 B, Q⟩] h2⟩] h3 (ix2 k j)
      = Cert.Spec.blockDiag hK hN (fun k j => P (ix2 k j)) (fun k j => Q (ix2 k j)) k j := by
  unfold Cert.Spec.blockDiag
  by_cases hk : k.val < K1
  · -- a row of the upper band: the row of `[P | Z1]`
    refine (concatenate_pair_apply_left (t := Sh2 K N) (s₁ := Sh2 K1 N) (s₂ := Sh2 K2 N) (0 : Fin 2) _ _ h3 (ix2 k j) rfl
      (ix2 (⟨k.val, hk⟩ : Fin K1) j) ?_).trans ?_
    · intro b
      match b with
      | ⟨0, _⟩ => rfl
      | ⟨1, _⟩ => rfl
    · rw [concat_cols_apply hN P Z1 h1 ⟨k.val, hk⟩ j]
      unfold Cert.Spec.catCols Cert.Spec.beside
      simp only [dif_pos hk]
      by_cases hj : j.val < A
      · rw [dif_pos hj, dif_pos hj]
      · rw [dif_neg hj, dif_neg hj]; exact hZ1 _
  · -- a row of the lower band: the row of `[Z2 | Q]`, `K1` rows up
    refine (concatenate_pair_apply_right (t := Sh2 K N) (s₁ := Sh2 K1 N) (s₂ := Sh2 K2 N) (0 : Fin 2) _ _ h3 (ix2 k j) rfl rfl
      (ix2 (⟨k.val - K1, by omega⟩ : Fin K2) j) ?_ ?_).trans ?_
    · intro b hb
      match b, hb with
      | ⟨0, _⟩, hb => exact absurd rfl hb
      | ⟨1, _⟩, _ => rfl
    · show (k.val - K1) + K1 = k.val
      omega
    · rw [concat_cols_apply hN Z2 Q h2 ⟨k.val - K1, by omega⟩ j]
      unfold Cert.Spec.catCols Cert.Spec.beside
      simp only [dif_neg hk]
      by_cases hj : j.val < A
      · rw [dif_pos hj, dif_pos hj]; exact hZ2 _
      · rw [dif_neg hj, dif_neg hj]

/-- The three-piece edge row `[feat | xf | xt]` at edge `e` and column `k`. -/
theorem edge_row_apply {E : ℕ} (feat : (Sh2 E 8).Idx → EReal) (xf xt : (Sh2 E 16).Idx → EReal)
    (h : Shape.Concatenates [Sh2 E 8, Sh2 E 16, Sh2 E 16] (Sh2 E 40) 1) (e : Fin E) (k : Fin 40) :
    concatenate (Sh2 E 40) 1 [⟨Sh2 E 8, feat⟩, ⟨Sh2 E 16, xf⟩, ⟨Sh2 E 16, xt⟩] h (ix2 e k)
      = Cert.EdgeRow.pick (fun a => feat (ix2 e a)) (fun a => xf (ix2 e a)) (fun a => xt (ix2 e a)) k := by
  unfold Cert.EdgeRow.pick
  by_cases h8 : k.val < 8
  · rw [dif_pos h8]
    refine concatenate_apply_piece (t := Sh2 E 40) (1 : Fin 2)
      [⟨Sh2 E 8, feat⟩, ⟨Sh2 E 16, xf⟩, ⟨Sh2 E 16, xt⟩] h (ix2 e k) 0 (by simp) (Sh2 E 8) feat rfl rfl 0 rfl
      (ix2 e ⟨k.val, h8⟩) ?_ ?_
    · intro b hb
      match b, hb with
      | ⟨0, _⟩, _ => rfl
      | ⟨1, _⟩, hb => exact absurd rfl hb
    · show 0 + k.val = k.val
      omega
  · rw [dif_neg h8]
    by_cases h24 : k.val < 24
    · rw [dif_pos h24]
      refine concatenate_apply_piece (t := Sh2 E 40) (1 : Fin 2)
        [⟨Sh2 E 8, feat⟩, ⟨Sh2 E 16, xf⟩, ⟨Sh2 E 16, xt⟩] h (ix2 e k) 1 (by simp) (Sh2 E 16) xf rfl rfl 8 rfl
        (ix2 e ⟨k.val - 8, by omega⟩) ?_ ?_
      · intro b hb
        match b, hb with
        | ⟨0, _⟩, _ => rfl
        | ⟨1, _⟩, hb => exact absurd rfl hb
      · show 8 + (k.val - 8) = k.val
        omega
    · rw [dif_neg h24]
      refine concatenate_apply_piece (t := Sh2 E 40) (1 : Fin 2)
        [⟨Sh2 E 8, feat⟩, ⟨Sh2 E 16, xf⟩, ⟨Sh2 E 16, xt⟩] h (ix2 e k) 2 (by simp) (Sh2 E 16) xt rfl rfl 24 rfl
        (ix2 e ⟨k.val - 24, by omega⟩) ?_ ?_
      · intro b hb
        match b, hb with
        | ⟨0, _⟩, _ => rfl
        | ⟨1, _⟩, hb => exact absurd rfl hb
      · show 24 + (k.val - 24) = k.val
        omega

end Cert.Stages

end
-- ==== Proof.KernelStages.lean ====
/-
  What the host operations before the region hand the kernel, as functions of the argument arrays: the masked edge
  input (each of its three pieces multiplied by the edge's mask entry before they are joined), the two first-layer
  matrices side by side, the block-diagonal second- and third-layer matrices (zero off the diagonal blocks), and
  the bias vectors end to end — each read at an index on the extended reals, where a change of float format is
  the identity.
-/
import proofs.«415916_j17025250362097_3_alg».proof.Proof.Gen.KernelIdeal
import proofs.«415916_j17025250362097_3_alg».proof.Proof.Spec
import proofs.«415916_j17025250362097_3_alg».proof.Proof.EdgeRow
import proofs.«415916_j17025250362097_3_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

namespace Cert.KernelStages

open Idealize.ShloMosaic Idealize.ShloMosaic.ValueIdx Cert.KernelIdeal Cert.KernelIdeal.Gen

variable {F : FTy → Type} [FloatOps F]

/-- The column of node indices a gather or scatter uses: a negative index wrapped by the table's length. -/
def idxCol (a : (⟨S800000, .i32⟩ : BufTy).Contents (Elt F)) : (⟨S800000x1, .i32⟩ : BufTy).Contents (Elt F) :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 100000#32))) a)

/-- The mask as a column. -/
def maskCol (a2 : (⟨S800000, .f32⟩ : BufTy).Contents (Elt F)) : (⟨S800000x1, .f32⟩ : BufTy).Contents (Elt F) :=
  broadcastInDim S800000x1 ![0] bcast_S800000_S800000x1_0 a2

/-- The rows of the coordinate table at a column of node indices. -/
def gath (a0 : (⟨S100000x16, .f32⟩ : BufTy).Contents (Elt F)) (a : (⟨S800000, .i32⟩ : BufTy).Contents (Elt F)) :
    (⟨S800000x16, .f32⟩ : BufTy).Contents (Elt F) :=
  Host.gather gather_S100000x16_S800000x1_S800000x16_1_0_n_n_0_1_116 a0 (idxCol a)

/-- The kernel's edge input: features, source coordinates, target coordinates, each masked, joined along the columns. -/
def inpK (a0 : (⟨S100000x16, .f32⟩ : BufTy).Contents (Elt F)) (a1 : (⟨S800000x8, .f32⟩ : BufTy).Contents (Elt F))
    (a2 : (⟨S800000, .f32⟩ : BufTy).Contents (Elt F)) (a3 a4 : (⟨S800000, .i32⟩ : BufTy).Contents (Elt F)) :
    (⟨S800000x40, .f32⟩ : BufTy).Contents (Elt F) :=
  concatenate S800000x40 1
    [⟨S800000x8, mulf a1 (broadcastInDim S800000x8 ![0, 1] bcast_S800000x1_S800000x8_0_1 (maskCol a2))⟩,
     ⟨S800000x16, mulf (gath a0 a3) (broadcastInDim S800000x16 ![0, 1] bcast_S800000x1_S800000x16_0_1 (maskCol a2))⟩,
     ⟨S800000x16, mulf (gath a0 a4) (broadcastInDim S800000x16 ![0, 1] bcast_S800000x1_S800000x16_0_1 (maskCol a2))⟩]
    concatenates_S800000x8_S800000x16_S800000x16_S800000x40_d1

/-- The two first-layer matrices side by side. -/
def wcat0 (a5 a11 : (⟨S40x64, .f32⟩ : BufTy).Contents (Elt F)) : (⟨S40x128, .bf16⟩ : BufTy).Contents (Elt F) :=
  truncf .bf16 (concatenate S40x128 1 [⟨S40x64, a5⟩, ⟨S40x64, a11⟩] concatenates_S40x64_S40x64_S40x128_d1) bitsLt_bf16_f32

/-- Two bias vectors of length 64 end to end. -/
def bcat128 (a b : (⟨S64, .f32⟩ : BufTy).Contents (Elt F)) : (⟨S128, .f32⟩ : BufTy).Contents (Elt F) :=
  concatenate S128 0 [⟨S64, a⟩, ⟨S64, b⟩] concatenates_S64_S64_S128_d0

/-- Two bias vectors of length 16 end to end. -/
def bcat32 (a b : (⟨S16, .f32⟩ : BufTy).Contents (Elt F)) : (⟨S32, .f32⟩ : BufTy).Contents (Elt F) :=
  concatenate S32 0 [⟨S16, a⟩, ⟨S16, b⟩] concatenates_S16_S16_S32_d0

/-- The block-diagonal second-layer matrix. -/
def w1bd (a7 a13 : (⟨S64x64, .f32⟩ : BufTy).Contents (Elt F)) : (⟨S128x128, .bf16⟩ : BufTy).Contents (Elt F) :=
  truncf .bf16 (concatenate S128x128 0
    [⟨S64x128, concatenate S64x128 1 [⟨S64x64, a7⟩, ⟨S64x64, broadcastInDim S64x64 ![] bcast_S_S64x64 (constant S_ .f32 0x00000000#32)⟩] concatenates_S64x64_S64x64_S64x128_d1⟩,
     ⟨S64x128, concatenate S64x128 1 [⟨S64x64, broadcastInDim S64x64 ![] bcast_S_S64x64 (constant S_ .f32 0x00000000#32)⟩, ⟨S64x64, a13⟩] concatenates_S64x64_S64x64_S64x128_d1⟩]
    concatenates_S64x128_S64x128_S128x128_d0) bitsLt_bf16_f32

/-- The block-diagonal third-layer matrix. -/
def w2bd (a9 a15 : (⟨S64x16, .f32⟩ : BufTy).Contents (Elt F)) : (⟨S128x32, .bf16⟩ : BufTy).Contents (Elt F) :=
  truncf .bf16 (concatenate S128x32 0
    [⟨S64x32, concatenate S64x32 1 [⟨S64x16, a9⟩, ⟨S64x16, broadcastInDim S64x16 ![] bcast_S_S64x16 (constant S_ .f32 0x00000000#32)⟩] concatenates_S64x16_S64x16_S64x32_d1⟩,
     ⟨S64x32, concatenate S64x32 1 [⟨S64x16, broadcastInDim S64x16 ![] bcast_S_S64x16 (constant S_ .f32 0x00000000#32)⟩, ⟨S64x16, a15⟩] concatenates_S64x16_S64x16_S64x32_d1⟩]
    concatenates_S64x32_S64x32_S128x32_d0) bitsLt_bf16_f32

/-! ## Read at an index, on the extended reals -/

/-- The mask column spread along the columns of an `[800000, n]` array reads, at `(e, a)`, the mask entry of edge `e`. -/
theorem maskB_apply {n : ℕ} (h : S800000x1.BroadcastsInDim (Cert.Stages.Sh2 800000 n) (![0, 1] : Fin 2 → Fin 2))
    (a2 : (⟨S800000, .f32⟩ : BufTy).Contents (Elt Ideal)) (e : Fin 800000) (a : Fin n) :
    broadcastInDim (Cert.Stages.Sh2 800000 n) ![0, 1] h (maskCol (F := Ideal) a2) (ix2 e a) = a2 (ix1 e) := by
  unfold maskCol
  refine (broadcastInDim_apply _ h _ (ix2 e a) (ix2 e (0 : Fin 1)) fun b => ?_).trans ?_
  · match b with
    | ⟨0, _⟩ => rfl
    | ⟨1, _⟩ => rfl
  · refine broadcastInDim_apply _ _ a2 (ix2 e (0 : Fin 1)) (ix1 e) fun b => ?_
    match b with
    | ⟨0, _⟩ => rfl

/-- A rank-0 zero constant spread over a shape is zero at every index. -/
theorem zeroB_apply {t : Shape} (h : S_.BroadcastsInDim t (![] : Fin 0 → Fin t.rank)) (i : t.Idx) :
    broadcastInDim t ![] h (constant (F := Ideal) S_ .f32 0x00000000#32) i = 0 := by
  refine (broadcastInDim_apply _ h _ i ix0 fun b => b.elim0).trans ?_
  exact (constant_apply _ _).trans Ideal.ofBits_zero_f32

/-- The kernel's edge input at edge `e`, column `k`: the joined row times the edge's mask entry. -/
theorem inpK_apply (a0 : (⟨S100000x16, .f32⟩ : BufTy).Contents (Elt Ideal)) (a1 : (⟨S800000x8, .f32⟩ : BufTy).Contents (Elt Ideal))
    (a2 : (⟨S800000, .f32⟩ : BufTy).Contents (Elt Ideal)) (a3 a4 : (⟨S800000, .i32⟩ : BufTy).Contents (Elt Ideal))
    (e : Fin 800000) (k : Fin 40) :
    inpK (F := Ideal) a0 a1 a2 a3 a4 (ix2 e k)
      = Cert.EdgeRow.pick (fun a => a1 (ix2 e a)) (fun a => gath (F := Ideal) a0 a3 (ix2 e a))
          (fun a => gath (F := Ideal) a0 a4 (ix2 e a)) k * a2 (ix1 e) := by
  unfold inpK
  refine (Cert.Stages.edge_row_apply (E := 800000) _ _ _ _ e k).trans ?_
  refine Eq.trans ?_ (Cert.EdgeRow.pick_mul _ _ _ (a2 (ix1 e)) k)
  congr 1
  · funext a
    exact (mulf_apply _ _ _).trans (congrArg (a1 (ix2 e a) * ·) (maskB_apply _ a2 e a))
  · funext a
    exact (mulf_apply _ _ _).trans (congrArg (gath (F := Ideal) a0 a3 (ix2 e a) * ·) (maskB_apply _ a2 e a))
  · funext a
    exact (mulf_apply _ _ _).trans (congrArg (gath (F := Ideal) a0 a4 (ix2 e a) * ·) (maskB_apply _ a2 e a))

theorem wcat0_apply (a5 a11 : (⟨S40x64, .f32⟩ : BufTy).Contents (Elt Ideal)) (k : Fin 40) (j : Fin 128) :
    wcat0 (F := Ideal) a5 a11 (ix2 k j)
      = Cert.Spec.catCols (N := 128) (by norm_num) (fun (k : Fin 40) (j : Fin 64) => a5 (ix2 k j)) (fun (k : Fin 40) (j : Fin 64) => a11 (ix2 k j)) k j := by
  unfold wcat0
  refine (truncf_apply (φ := .f32) (ψ := .bf16) _ bitsLt_bf16_f32 _).trans ?_
  exact Cert.Stages.concat_cols_apply (K := 40) (A := 64) (B := 64) (N := 128) (by norm_num) _ _ _ k j

theorem bcat128_apply (a b : (⟨S64, .f32⟩ : BufTy).Contents (Elt Ideal)) (j : Fin 128) :
    bcat128 (F := Ideal) a b (ix1 j)
      = Cert.Spec.beside (N := 128) (by norm_num) (fun j : Fin 64 => a (ix1 j)) (fun j : Fin 64 => b (ix1 j)) j := by
  unfold bcat128
  exact Cert.Stages.concat_vec_apply (A := 64) (B := 64) (N := 128) (by norm_num) _ _ _ j

theorem bcat32_apply (a b : (⟨S16, .f32⟩ : BufTy).Contents (Elt Ideal)) (j : Fin 32) :
    bcat32 (F := Ideal) a b (ix1 j)
      = Cert.Spec.beside (N := 32) (by norm_num) (fun j : Fin 16 => a (ix1 j)) (fun j : Fin 16 => b (ix1 j)) j := by
  unfold bcat32
  exact Cert.Stages.concat_vec_apply (A := 16) (B := 16) (N := 32) (by norm_num) _ _ _ j

theorem w1bd_apply (a7 a13 : (⟨S64x64, .f32⟩ : BufTy).Contents (Elt Ideal)) (k j : Fin 128) :
    w1bd (F := Ideal) a7 a13 (ix2 k j)
      = Cert.Spec.blockDiag (K := 128) (N := 128) (by norm_num) (by norm_num)
          (fun (k j : Fin 64) => a7 (ix2 k j)) (fun (k j : Fin 64) => a13 (ix2 k j)) k j := by
  unfold w1bd
  refine (truncf_apply (φ := .f32) (ψ := .bf16) _ bitsLt_bf16_f32 _).trans ?_
  exact Cert.Stages.blockDiag_apply (K1 := 64) (K2 := 64) (K := 128) (A := 64) (B := 64) (N := 128) (by norm_num) (by norm_num)
    _ _ _ _ (zeroB_apply _) (zeroB_apply _) _ _ _ k j

theorem w2bd_apply (a9 a15 : (⟨S64x16, .f32⟩ : BufTy).Contents (Elt Ideal)) (k : Fin 128) (j : Fin 32) :
    w2bd (F := Ideal) a9 a15 (ix2 k j)
      = Cert.Spec.blockDiag (K := 128) (N := 32) (by norm_num) (by norm_num)
          (fun (k : Fin 64) (j : Fin 16) => a9 (ix2 k j)) (fun (k : Fin 64) (j : Fin 16) => a15 (ix2 k j)) k j := by
  unfold w2bd
  refine (truncf_apply (φ := .f32) (ψ := .bf16) _ bitsLt_bf16_f32 _).trans ?_
  exact Cert.Stages.blockDiag_apply (K1 := 64) (K2 := 64) (K := 128) (A := 16) (B := 16) (N := 32) (by norm_num) (by norm_num)
    _ _ _ _ (zeroB_apply _) (zeroB_apply _) _ _ _ k j

end Cert.KernelStages

end
-- ==== Proof.KernelPayload.lean ====
/-
  What the kernel body stores, read at one entry: row `p` of the block goes through three dense layers (a matrix
  product into a zero accumulator plus a bias row broadcast down the rows), with a rectifier after the first two;
  a change of float format is the identity on extended reals.
-/
import proofs.«415916_j17025250362097_3_alg».proof.Proof.Gen.KernelIdeal.Skeleton
import proofs.«415916_j17025250362097_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelPayload

open Idealize.ShloMosaic Idealize.ShloMosaic.ValueIdx Cert.KernelIdeal Cert.KernelIdeal.Gen

/-! ## A bias vector cast to a row and repeated down the rows -/

/-- A length-`a` vector cast to one row `[1, a]` and then broadcast to `[n, a]`, read at `(p, j)`, is the vector at `j`. -/
theorem biasRow_apply {α : Type} {n a : ℕ} (b : (⟨1, ![a]⟩ : Shape).Idx → α)
    (h1 : (⟨1, ![a]⟩ : Shape).ShapeCasts ⟨2, ![1, a]⟩) (h2 : (⟨2, ![1, a]⟩ : Shape).Broadcasts ⟨2, ![n, a]⟩)
    (p : Fin n) (j : Fin a) :
    broadcastTo ⟨2, ![n, a]⟩ (shapeCast ⟨2, ![1, a]⟩ b h1) h2 (ix2 p j) = b (ix1 j) := by
  rw [broadcastTo_1b_ab_apply, shapeCast_a_1a_apply]

/-! ## The three matrix products, each read at one entry -/

/-! ### The contraction of layer 0: rows of a [20000, 40] block against a [40, 128] matrix

The operand indices axis by axis: at result entry `i` and contracted position `q` the left operand is read at
(row of `i`, `q`) and the right operand at (`q`, column of `i`). -/

theorem lhs0_0 (i : S20000x128.Idx) (q : dot_S20000x40_S40x128_S20000x128_1_0_0_1_n_n.contr.Idx) :
    (dot_S20000x40_S40x128_S20000x128_1_0_0_1_n_n.lhsIdx i q 0).val = (i 0).val := by
  unfold DotDims.lhsIdx
  rw [dif_neg (show ¬(0 : Fin S20000x40.rank) ∈ dot_S20000x40_S40x128_S20000x128_1_0_0_1_n_n.lhsBatch by decide), dif_pos (show (0 : Fin S20000x40.rank) ∈ dot_S20000x40_S40x128_S20000x128_1_0_0_1_n_n.lhsNonContracting by decide)]
  rfl
theorem lhs0_1 (i : S20000x128.Idx) (q : dot_S20000x40_S40x128_S20000x128_1_0_0_1_n_n.contr.Idx) :
    (dot_S20000x40_S40x128_S20000x128_1_0_0_1_n_n.lhsIdx i q 1).val = (q ⟨0, by decide⟩).val :=
  dot_S20000x40_S40x128_S20000x128_1_0_0_1_n_n.lhsIdx_val_of_single rfl i q
theorem rhs0_0 (i : S20000x128.Idx) (q : dot_S20000x40_S40x128_S20000x128_1_0_0_1_n_n.contr.Idx) :
    (dot_S20000x40_S40x128_S20000x128_1_0_0_1_n_n.rhsIdx i q 0).val = (q ⟨0, by decide⟩).val :=
  dot_S20000x40_S40x128_S20000x128_1_0_0_1_n_n.rhsIdx_val_of_single rfl i q
theorem rhs0_1 (i : S20000x128.Idx) (q : dot_S20000x40_S40x128_S20000x128_1_0_0_1_n_n.contr.Idx) :
    (dot_S20000x40_S40x128_S20000x128_1_0_0_1_n_n.rhsIdx i q 1).val = (i 1).val := by
  unfold DotDims.rhsIdx
  rw [dif_neg (show ¬(1 : Fin S40x128.rank) ∈ dot_S20000x40_S40x128_S20000x128_1_0_0_1_n_n.rhsBatch by decide), dif_pos (show (1 : Fin S40x128.rank) ∈ dot_S20000x40_S40x128_S20000x128_1_0_0_1_n_n.rhsNonContracting by decide)]
  rfl

/-- The product into the zero accumulator, at row `p` and column `j`: the sum over the 40 contracted positions of
    row `p` of the left operand times column `j` of the right. -/
theorem mm0_apply (x : FVec Ideal S20000x40 .bf16) (w : FVec Ideal S40x128 .bf16) (p : Fin 20000) (j : Fin 128) :
    matmul dot_S20000x40_S40x128_S20000x128_1_0_0_1_n_n none x w (constant (F := Ideal) S20000x128 .f32 0x00000000#32) (ix2 p j)
      = ∑ k : Fin 40, x (ix2 p k) * w (ix2 k j) := by
  simp only [matmul]
  rw [Ideal.matmul_constant_zero_apply, ← Equiv.sum_comp (contrEquiv1 dot_S20000x40_S40x128_S20000x128_1_0_0_1_n_n 40 rfl rfl).symm]
  refine Finset.sum_congr rfl fun k _ => ?_
  have hk := contrEquiv1_symm_val dot_S20000x40_S40x128_S20000x128_1_0_0_1_n_n 40 rfl rfl k
  have el : dot_S20000x40_S40x128_S20000x128_1_0_0_1_n_n.lhsIdx (ix2 p j) ((contrEquiv1 dot_S20000x40_S40x128_S20000x128_1_0_0_1_n_n 40 rfl rfl).symm k) = ix2 p k := funext fun a => Fin.ext (by
    match a with
    | ⟨0, _⟩ => exact lhs0_0 _ _
    | ⟨1, _⟩ => exact (lhs0_1 _ _).trans hk)
  have er : dot_S20000x40_S40x128_S20000x128_1_0_0_1_n_n.rhsIdx (ix2 p j) ((contrEquiv1 dot_S20000x40_S40x128_S20000x128_1_0_0_1_n_n 40 rfl rfl).symm k) = ix2 k j := funext fun a => Fin.ext (by
    match a with
    | ⟨0, _⟩ => exact (rhs0_0 _ _).trans hk
    | ⟨1, _⟩ => exact rhs0_1 _ _)
  rw [el, er]

/-! ### The contraction of layer 1: rows of a [20000, 128] block against a [128, 128] matrix

The operand indices axis by axis: at result entry `i` and contracted position `q` the left operand is read at
(row of `i`, `q`) and the right operand at (`q`, column of `i`). -/

theorem lhs1_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhs1_1 (i : S20000x128.Idx) (q : dot_S20000x128_S128x128_S20000x128_1_0_0_1_n_n.contr.Idx) :
    (dot_S20000x128_S128x128_S20000x128_1_0_0_1_n_n.lhsIdx i q 1).val = (q ⟨0, by decide⟩).val :=
  dot_S20000x128_S128x128_S20000x128_1_0_0_1_n_n.lhsIdx_val_of_single rfl i q
theorem rhs1_0 (i : S20000x128.Idx) (q : dot_S20000x128_S128x128_S20000x128_1_0_0_1_n_n.contr.Idx) :
    (dot_S20000x128_S128x128_S20000x128_1_0_0_1_n_n.rhsIdx i q 0).val = (q ⟨0, by decide⟩).val :=
  dot_S20000x128_S128x128_S20000x128_1_0_0_1_n_n.rhsIdx_val_of_single rfl i q
theorem rhs1_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl

/-- The product into the zero accumulator, at row `p` and column `j`: the sum over the 128 contracted positions of
    row `p` of the left operand times column `j` of the right. -/
theorem mm1_apply (x : FVec Ideal S20000x128 .bf16) (w : FVec Ideal S128x128 .bf16) (p : Fin 20000) (j : Fin 128) :
    matmul dot_S20000x128_S128x128_S20000x128_1_0_0_1_n_n none x w (constant (F := Ideal) S20000x128 .f32 0x00000000#32) (ix2 p j)
      = ∑ k : Fin 128, x (ix2 p k) * w (ix2 k j) := by
  simp only [matmul]
  rw [Ideal.matmul_constant_zero_apply, ← Equiv.sum_comp (contrEquiv1 dot_S20000x128_S128x128_S20000x128_1_0_0_1_n_n 128 rfl rfl).symm]
  refine Finset.sum_congr rfl fun k _ => ?_
  have hk := contrEquiv1_symm_val dot_S20000x128_S128x128_S20000x128_1_0_0_1_n_n 128 rfl rfl k
  have el : dot_S20000x128_S128x128_S20000x128_1_0_0_1_n_n.lhsIdx (ix2 p j) ((contrEquiv1 dot_S20000x128_S128x128_S20000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S20000x128_S128x128_S20000x128_1_0_0_1_n_n.rhsIdx (ix2 p j) ((contrEquiv1 dot_S20000x128_S128x128_S20000x128_1_0_0_1_n_n 128 rfl rfl).symm k) = ix2 k j := funext fun a => Fin.ext (by
    match a with
    | ⟨0, _⟩ => exact (rhs1_0 _ _).trans hk
    | ⟨1, _⟩ => exact rhs1_1 _ _)
  rw [el, er]

/-! ### The contraction of layer 2: rows of a [20000, 128] block against a [128, 32] matrix

The operand indices axis by axis: at result entry `i` and contracted position `q` the left operand is read at
(row of `i`, `q`) and the right operand at (`q`, column of `i`). -/

theorem lhs2_0 (i : S20000x32.Idx) (q : dot_S20000x128_S128x32_S20000x32_1_0_0_1_n_n.contr.Idx) :
    (dot_S20000x128_S128x32_S20000x32_1_0_0_1_n_n.lhsIdx i q 0).val = (i 0).val := by
  unfold DotDims.lhsIdx
  rw [dif_neg (show ¬(0 : Fin S20000x128.rank) ∈ dot_S20000x128_S128x32_S20000x32_1_0_0_1_n_n.lhsBatch by decide), dif_pos (show (0 : Fin S20000x128.rank) ∈ dot_S20000x128_S128x32_S20000x32_1_0_0_1_n_n.lhsNonContracting by decide)]
  rfl
theorem lhs2_1 (i : S20000x32.Idx) (q : dot_S20000x128_S128x32_S20000x32_1_0_0_1_n_n.contr.Idx) :
    (dot_S20000x128_S128x32_S20000x32_1_0_0_1_n_n.lhsIdx i q 1).val = (q ⟨0, by decide⟩).val :=
  dot_S20000x128_S128x32_S20000x32_1_0_0_1_n_n.lhsIdx_val_of_single rfl i q
theorem rhs2_0 (i : S20000x32.Idx) (q : dot_S20000x128_S128x32_S20000x32_1_0_0_1_n_n.contr.Idx) :
    (dot_S20000x128_S128x32_S20000x32_1_0_0_1_n_n.rhsIdx i q 0).val = (q ⟨0, by decide⟩).val :=
  dot_S20000x128_S128x32_S20000x32_1_0_0_1_n_n.rhsIdx_val_of_single rfl i q
theorem rhs2_1 (i : S20000x32.Idx) (q : dot_S20000x128_S128x32_S20000x32_1_0_0_1_n_n.contr.Idx) :
    (dot_S20000x128_S128x32_S20000x32_1_0_0_1_n_n.rhsIdx i q 1).val = (i 1).val := by
  unfold DotDims.rhsIdx
  rw [dif_neg (show ¬(1 : Fin S128x32.rank) ∈ dot_S20000x128_S128x32_S20000x32_1_0_0_1_n_n.rhsBatch by decide), dif_pos (show (1 : Fin S128x32.rank) ∈ dot_S20000x128_S128x32_S20000x32_1_0_0_1_n_n.rhsNonContracting by decide)]
  rfl

/-- The product into the zero accumulator, at row `p` and column `j`: the sum over the 128 contracted positions of
    row `p` of the left operand times column `j` of the right. -/
theorem mm2_apply (x : FVec Ideal S20000x128 .bf16) (w : FVec Ideal S128x32 .bf16) (p : Fin 20000) (j : Fin 32) :
    matmul dot_S20000x128_S128x32_S20000x32_1_0_0_1_n_n none x w (constant (F := Ideal) S20000x32 .f32 0x00000000#32) (ix2 p j)
      = ∑ k : Fin 128, x (ix2 p k) * w (ix2 k j) := by
  simp only [matmul]
  rw [Ideal.matmul_constant_zero_apply, ← Equiv.sum_comp (contrEquiv1 dot_S20000x128_S128x32_S20000x32_1_0_0_1_n_n 128 rfl rfl).symm]
  refine Finset.sum_congr rfl fun k _ => ?_
  have hk := contrEquiv1_symm_val dot_S20000x128_S128x32_S20000x32_1_0_0_1_n_n 128 rfl rfl k
  have el : dot_S20000x128_S128x32_S20000x32_1_0_0_1_n_n.lhsIdx (ix2 p j) ((contrEquiv1 dot_S20000x128_S128x32_S20000x32_1_0_0_1_n_n 128 rfl rfl).symm k) = ix2 p k := funext fun a => Fin.ext (by
    match a with
    | ⟨0, _⟩ => exact lhs2_0 _ _
    | ⟨1, _⟩ => exact (lhs2_1 _ _).trans hk)
  have er : dot_S20000x128_S128x32_S20000x32_1_0_0_1_n_n.rhsIdx (ix2 p j) ((contrEquiv1 dot_S20000x128_S128x32_S20000x32_1_0_0_1_n_n 128 rfl rfl).symm k) = ix2 k j := funext fun a => Fin.ext (by
    match a with
    | ⟨0, _⟩ => exact (rhs2_0 _ _).trans hk
    | ⟨1, _⟩ => exact rhs2_1 _ _)
  rw [el, er]

/-! ## The three dense layers, each read at one entry -/

/-- Layer 0 before its rectifier, at `(p, j)`: the dense layer of row `p`. -/
theorem dense0_apply (x : FVec Ideal S20000x40 .bf16) (w : FVec Ideal S40x128 .bf16) (b : FVec Ideal S128 .f32)
    (h1 : S128.ShapeCasts S1x128) (h2 : S1x128.Broadcasts S20000x128) (p : Fin 20000) (j : Fin 128) :
    addf (matmul dot_S20000x40_S40x128_S20000x128_1_0_0_1_n_n none x w (constant (F := Ideal) S20000x128 .f32 0x00000000#32))
        (broadcastTo S20000x128 (shapeCast S1x128 b h1) h2) (ix2 p j)
      = Cert.Spec.dense (fun k : Fin 40 => x (ix2 p k)) (fun (k : Fin 40) (j : Fin 128) => w (ix2 k j))
          (fun j : Fin 128 => b (ix1 j)) j := by
  rw [addf_apply, mm0_apply, biasRow_apply]
  rfl

/-- Layer 1 before its rectifier, at `(p, j)`: the dense layer of row `p`. -/
theorem dense1_apply (x : FVec Ideal S20000x128 .bf16) (w : FVec Ideal S128x128 .bf16) (b : FVec Ideal S128 .f32)
    (h1 : S128.ShapeCasts S1x128) (h2 : S1x128.Broadcasts S20000x128) (p : Fin 20000) (j : Fin 128) :
    addf (matmul dot_S20000x128_S128x128_S20000x128_1_0_0_1_n_n none x w (constant (F := Ideal) S20000x128 .f32 0x00000000#32))
        (broadcastTo S20000x128 (shapeCast S1x128 b h1) h2) (ix2 p j)
      = Cert.Spec.dense (fun k : Fin 128 => x (ix2 p k)) (fun (k : Fin 128) (j : Fin 128) => w (ix2 k j))
          (fun j : Fin 128 => b (ix1 j)) j := by
  rw [addf_apply, mm1_apply, biasRow_apply]
  rfl

/-- Layer 2 before its rectifier, at `(p, j)`: the dense layer of row `p`. -/
theorem dense2_apply (x : FVec Ideal S20000x128 .bf16) (w : FVec Ideal S128x32 .bf16) (b : FVec Ideal S32 .f32)
    (h1 : S32.ShapeCasts S1x32) (h2 : S1x32.Broadcasts S20000x32) (p : Fin 20000) (j : Fin 32) :
    addf (matmul dot_S20000x128_S128x32_S20000x32_1_0_0_1_n_n none x w (constant (F := Ideal) S20000x32 .f32 0x00000000#32))
        (broadcastTo S20000x32 (shapeCast S1x32 b h1) h2) (ix2 p j)
      = Cert.Spec.dense (fun k : Fin 128 => x (ix2 p k)) (fun (k : Fin 128) (j : Fin 32) => w (ix2 k j))
          (fun j : Fin 32 => b (ix1 j)) j := by
  rw [addf_apply, mm2_apply, biasRow_apply]
  rfl

/-! ## The stored block -/

/-- The stored block at row `p`, column `j`: the three-layer perceptron of row `p` of the input block. -/
theorem pay_apply (x0 : Vec Ideal S20000x40 .f32) (w0 : Vec Ideal S40x128 .bf16) (b0 : Vec Ideal S128 .f32)
    (w1 : Vec Ideal S128x128 .bf16) (b1 : Vec Ideal S128 .f32) (w2 : Vec Ideal S128x32 .bf16) (b2 : Vec Ideal S32 .f32)
    (p : Fin 20000) (j : Fin 32) :
    k0_pay1 (F := Ideal) x0 w0 b0 w1 b1 w2 b2 (ix2 p j)
      = Cert.Spec.mlp3 (fun k : Fin 40 => x0 (ix2 p k)) (fun (k : Fin 40) (j : Fin 128) => w0 (ix2 k j)) (fun j : Fin 128 => b0 (ix1 j))
          (fun (k : Fin 128) (j : Fin 128) => w1 (ix2 k j)) (fun j : Fin 128 => b1 (ix1 j))
          (fun (k : Fin 128) (j : Fin 32) => w2 (ix2 k j)) (fun j : Fin 32 => b2 (ix1 j)) j := by
  unfold k0_pay1
  -- A cast to the same shape and a change of float format are the identity; each product plus its bias row is the
  -- dense layer of row `p`; a rectifier is the maximum with the f32 word zero, which is the extended real `0`.
  -- What is left is the three-layer perceptron with its definitions opened.
  simp only [shapeCast_self, dense0_apply, dense1_apply, dense2_apply, maximumf_apply, truncf_apply, broadcast_apply,
    Scalar.ofBits, Ideal.ofBits_zero_f32]
  rfl

end Cert.KernelPayload

end
-- ==== Proof.LibNary3.lean ====
/-
  A host operation over a literal family of THREE buffers (a concatenate of three operands), read at its result
  buffer: the result with each operand's contents at its own reference, so that rewriting can go on inside the
  operands. General; stated for any topology, signature and value family.
-/
import Idealize.ShloMosaic.Lib.StableHlo.Run

noncomputable section

namespace Idealize.ShloMosaic.StableHlo

variable {τ : Topo} {sig : RefSig} {Val : EltTy → Type}
variable {x a b y : Ref sig .tc}

/-- The operation's result at its own buffer: its function applied to the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for one rewriting pass (the result buffer left out of the index). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One rewriting pass over a line of host operations that may hold three-operand concatenates: each operation's
    result at its own buffer is its function of the operands' contents, at any other buffer what was there. -/
macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KernelValue.lean ====
/-
  What the kernel's program computes, on the extended reals. The region's output array: row `e` of it is the fused
  three-layer perceptron of row `e` of the masked edge input, because grid point `t` stores, for each of its 20000
  rows, the perceptron of that row of its input block, the blocks tile the array, and the six weight and bias windows
  hold their whole arrays at every point.
-/
import proofs.«415916_j17025250362097_3_alg».proof.Proof.FrameKI
import proofs.«415916_j17025250362097_3_alg».proof.Proof.KernelStages
import proofs.«415916_j17025250362097_3_alg».proof.Proof.KernelPayload
import proofs.«415916_j17025250362097_3_alg».proof.Proof.LibNary3
import proofs.«415916_j17025250362097_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HandValue

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.KernelIdeal.Hand Cert.KernelStages

variable (m : (ℓ : Loc nD τ sig) → Buf (Elt Ideal) ℓ)

/-! ## The staged arrays as the region finds them: the host prefix's stages of the arguments -/

set_option maxHeartbeats 4000000 in
/-- The edge-input array: features, source and target coordinates, each masked, joined along the columns. -/
theorem V_v21 (c : Dev nD) :
    V m c main_v21 = inpK (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  dsimp only [V, V0]
  simp only [hostOps0, List.flatten_cons, List.flatten_nil, List.append_nil]
  after_results_simp3 <;> rfl

set_option maxHeartbeats 4000000 in
/-- The first-layer matrix: the two ports' matrices side by side. -/
theorem V_v23 (c : Dev nD) :
    V m c main_v23 = wcat0 (F := Ideal) (m ((c : Thread nD τ).loc main_arg5)) (m ((c : Thread nD τ).loc main_arg11)) := by
  dsimp only [V, V0]
  simp only [hostOps0, List.flatten_cons, List.flatten_nil, List.append_nil]
  after_results_simp3 <;> rfl

set_option maxHeartbeats 4000000 in
/-- The first-layer bias: the two ports' biases end to end. -/
theorem V_v24 (c : Dev nD) :
    V m c main_v24 = bcat128 (F := Ideal) (m ((c : Thread nD τ).loc main_arg6)) (m ((c : Thread nD τ).loc main_arg12)) := by
  dsimp only [V, V0]
  simp only [hostOps0, List.flatten_cons, List.flatten_nil, List.append_nil]
  after_results_simp3 <;> rfl

set_option maxHeartbeats 4000000 in
/-- The second-layer matrix: block diagonal. -/
theorem V_v30 (c : Dev nD) :
    V m c main_v30 = w1bd (F := Ideal) (m ((c : Thread nD τ).loc main_arg7)) (m ((c : Thread nD τ).loc main_arg13)) := by
  dsimp only [V, V0]
  simp only [hostOps0, List.flatten_cons, List.flatten_nil, List.append_nil]
  after_results_simp3 <;> rfl

set_option maxHeartbeats 4000000 in
/-- The second-layer bias. -/
theorem V_v31 (c : Dev nD) :
    V m c main_v31 = bcat128 (F := Ideal) (m ((c : Thread nD τ).loc main_arg8)) (m ((c : Thread nD τ).loc main_arg14)) := by
  dsimp only [V, V0]
  simp only [hostOps0, List.flatten_cons, List.flatten_nil, List.append_nil]
  after_results_simp3 <;> rfl

set_option maxHeartbeats 4000000 in
/-- The third-layer matrix: block diagonal. -/
theorem V_v37 (c : Dev nD) :
    V m c main_v37 = w2bd (F := Ideal) (m ((c : Thread nD τ).loc main_arg9)) (m ((c : Thread nD τ).loc main_arg15)) := by
  dsimp only [V, V0]
  simp only [hostOps0, List.flatten_cons, List.flatten_nil, List.append_nil]
  after_results_simp3 <;> rfl

set_option maxHeartbeats 4000000 in
/-- The third-layer bias. -/
theorem V_v38 (c : Dev nD) :
    V m c main_v38 = bcat32 (F := Ideal) (m ((c : Thread nD τ).loc main_arg10)) (m ((c : Thread nD τ).loc main_arg16)) := by
  dsimp only [V, V0]
  simp only [hostOps0, List.flatten_cons, List.flatten_nil, List.append_nil]
  after_results_simp3 <;> rfl

set_option maxHeartbeats 4000000 in
/-- The mask as a column, which the operations after the region read again. -/
theorem V_v0 (c : Dev nD) :
    V m c main_v0 = maskCol (F := Ideal) (m ((c : Thread nD τ).loc main_arg2)) := by
  dsimp only [V, V0]
  simp only [hostOps0, List.flatten_cons, List.flatten_nil, List.append_nil]
  after_results_simp3 <;> rfl

/-! ## The windows' blocks read off their arrays -/

/-- The printed index maps over the grid: the edge-input and output windows move one block of 20000 rows per point,
    the six weight and bias windows stay at block 0. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- Row `p` of the edge-input block at point `t` is row `20000 t + p` of the array. -/
theorem blk0_apply (c : Dev nD) (t : Fin cfg0.N) (p : Fin 20000) (k : Fin 40) (r : Fin 800000) (hr : r.val = t.val * 20000 + p.val) :
    iblk m c 0 t (ix2 p k) = V m c main_v21 (ix2 r k) := by
  unfold iblk
  rw [View.read_apply]
  show V m c main_v21 (((cfg0.win 0).blk t).view.emb (ix2 p k)) = V m c main_v21 (ix2 r k)
  obtain ⟨e0, e1, -⟩ := idx_facts t
  congr 1
  funext a; apply Fin.ext
  match a with
  | ⟨0, _⟩ => show win0_0.index t (0 : Fin 2) * 20000 + 1 * p.val = r.val; omega
  | ⟨1, _⟩ => show win0_0.index t (1 : Fin 2) * 40 + 1 * k.val = k.val; omega

/-- The first-layer matrix's block at any point is the whole matrix. -/
theorem blk1_apply (c : Dev nD) (t : Fin cfg0.N) (k : Fin 40) (j : Fin 128) :
    iblk m c 1 t (ix2 k j) = V m c main_v23 (ix2 k j) := by
  unfold iblk
  rw [View.read_apply]
  show V m c main_v23 (((cfg0.win 1).blk t).view.emb (ix2 k j)) = V m c main_v23 (ix2 k j)
  obtain ⟨-, -, -, -, e0, e1, -⟩ := idx_facts t
  congr 1
  funext a; apply Fin.ext
  match a with
  | ⟨0, _⟩ => show win0_1.index t (0 : Fin 2) * 40 + 1 * k.val = k.val; omega
  | ⟨1, _⟩ => show win0_1.index t (1 : Fin 2) * 128 + 1 * j.val = j.val; omega

/-- The first-layer bias's block at any point is the whole vector. -/
theorem blk2_apply (c : Dev nD) (t : Fin cfg0.N) (j : Fin 128) :
    iblk m c 2 t (ix1 j) = V m c main_v24 (ix1 j) := by
  unfold iblk
  rw [View.read_apply]
  show V m c main_v24 (((cfg0.win 2).blk t).view.emb (ix1 j)) = V m c main_v24 (ix1 j)
  obtain ⟨-, -, -, -, -, -, e0, -⟩ := idx_facts t
  congr 1
  funext a; apply Fin.ext
  match a with
  | ⟨0, _⟩ => show win0_2.index t (0 : Fin 1) * 128 + 1 * j.val = j.val; omega

/-- The second-layer matrix's block at any point is the whole matrix. -/
theorem blk3_apply (c : Dev nD) (t : Fin cfg0.N) (k j : Fin 128) :
    iblk m c 3 t (ix2 k j) = V m c main_v30 (ix2 k j) := by
  unfold iblk
  rw [View.read_apply]
  show V m c main_v30 (((cfg0.win 3).blk t).view.emb (ix2 k j)) = V m c main_v30 (ix2 k j)
  obtain ⟨-, -, -, -, -, -, -, e0, e1, -⟩ := idx_facts t
  congr 1
  funext a; apply Fin.ext
  match a with
  | ⟨0, _⟩ => show win0_3.index t (0 : Fin 2) * 128 + 1 * k.val = k.val; omega
  | ⟨1, _⟩ => show win0_3.index t (1 : Fin 2) * 128 + 1 * j.val = j.val; omega

/-- The second-layer bias's block at any point is the whole vector. -/
theorem blk4_apply (c : Dev nD) (t : Fin cfg0.N) (j : Fin 128) :
    iblk m c 4 t (ix1 j) = V m c main_v31 (ix1 j) := by
  unfold iblk
  rw [View.read_apply]
  show V m c main_v31 (((cfg0.win 4).blk t).view.emb (ix1 j)) = V m c main_v31 (ix1 j)
  obtain ⟨-, -, -, -, -, -, -, -, -, e0, -⟩ := idx_facts t
  congr 1
  funext a; apply Fin.ext
  match a with
  | ⟨0, _⟩ => show win0_4.index t (0 : Fin 1) * 128 + 1 * j.val = j.val; omega

/-- The third-layer matrix's block at any point is the whole matrix. -/
theorem blk5_apply (c : Dev nD) (t : Fin cfg0.N) (k : Fin 128) (j : Fin 32) :
    iblk m c 5 t (ix2 k j) = V m c main_v37 (ix2 k j) := by
  unfold iblk
  rw [View.read_apply]
  show V m c main_v37 (((cfg0.win 5).blk t).view.emb (ix2 k j)) = V m c main_v37 (ix2 k j)
  obtain ⟨-, -, -, -, -, -, -, -, -, -, e0, e1, -⟩ := idx_facts t
  congr 1
  funext a; apply Fin.ext
  match a with
  | ⟨0, _⟩ => show win0_5.index t (0 : Fin 2) * 128 + 1 * k.val = k.val; omega
  | ⟨1, _⟩ => show win0_5.index t (1 : Fin 2) * 32 + 1 * j.val = j.val; omega

/-- The third-layer bias's block at any point is the whole vector. -/
theorem blk6_apply (c : Dev nD) (t : Fin cfg0.N) (j : Fin 32) :
    iblk m c 6 t (ix1 j) = V m c main_v38 (ix1 j) := by
  unfold iblk
  rw [View.read_apply]
  show V m c main_v38 (((cfg0.win 6).blk t).view.emb (ix1 j)) = V m c main_v38 (ix1 j)
  obtain ⟨-, -, -, -, -, -, -, -, -, -, -, -, e0⟩ := idx_facts t
  congr 1
  funext a; apply Fin.ext
  match a with
  | ⟨0, _⟩ => show win0_6.index t (0 : Fin 1) * 32 + 1 * j.val = j.val; omega

/-! ## The output array as one function of the staged arrays -/

/-- Row `e` of the output array: the fused three-layer perceptron of row `e` of the edge input, over the fused
    weights and biases, all as the region finds them. -/
def G (c : Dev nD) : S800000x32.Idx → EReal := fun i =>
  Cert.Spec.mlp3 (fun k : Fin 40 => V m c main_v21 (ix2 (⟨(i 0).val, idx2_lt0 i⟩ : Fin 800000) k))
    (fun (k : Fin 40) (j : Fin 128) => V m c main_v23 (ix2 k j)) (fun j : Fin 128 => V m c main_v24 (ix1 j))
    (fun (k j : Fin 128) => V m c main_v30 (ix2 k j)) (fun j : Fin 128 => V m c main_v31 (ix1 j))
    (fun (k : Fin 128) (j : Fin 32) => V m c main_v37 (ix2 k j)) (fun j : Fin 32 => V m c main_v38 (ix1 j))
    ⟨(i 1).val, idx2_lt1 i⟩

theorem hz2 : (![0, 0] : Fin 2 → Nat) = fun _ => 0 := funext fun a => by fin_cases a <;> rfl
theorem hz1 : (![0] : Fin 1 → Nat) = fun _ => 0 := funext fun a => by fin_cases a <;> rfl

/-- A grid point is one of forty. -/
theorem point_lt (t : Fin cfg0.N) : t.val < 40 :=
  lt_of_lt_of_eq t.isLt (N_0 : cfg0.N = 40)

/-- What point `t` writes back is block `t` of `G`: row `p` of the stored block is the perceptron of row `p` of the
    point's input block, which is row `20000 t + p` of the edge input, over the whole weight and bias arrays. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after7]
  unfold out7
  rw [View.canon_unit_zero hz2]
  simp only [View.ld_unit_zero (S := S20000x40) hz2, View.ld_unit_zero (S := S40x128) hz2, View.ld_unit_zero (S := S128) hz1,
    View.ld_unit_zero (S := S128x128) hz2, View.ld_unit_zero (S := S128x32) hz2, View.ld_unit_zero (S := S32) hz1]
  funext j
  obtain ⟨p, q, rfl⟩ : ∃ (p : Fin 20000) (q : Fin 32), j = ix2 p q := ⟨j 0, j 1, eq_ix2 j⟩
  rw [View.read_apply]
  show k0_pay1 (F := Ideal) (iblk m c 0 t) (iblk m c 1 t) (iblk m c 2 t) (iblk m c 3 t) (iblk m c 4 t) (iblk m c 5 t)
      (iblk m c 6 t) (ix2 p q) = G m c (((cfg0.win 7).blk t).view.emb (ix2 p q))
  rw [Cert.KernelPayload.pay_apply]
  obtain ⟨-, -, e2, e3, -⟩ := idx_facts t
  have ht := point_lt t
  have hlt : t.val * 20000 + p.val < 800000 := by have := p.isLt; omega
  have h0 : ((((cfg0.win 7).blk t).view.emb (ix2 p q)) 0).val = t.val * 20000 + p.val := by
    show win0_7.index t (0 : Fin 2) * 20000 + 1 * p.val = _; omega
  have h1 : ((((cfg0.win 7).blk t).view.emb (ix2 p q)) 1).val = q.val := by
    show win0_7.index t (1 : Fin 2) * 32 + 1 * q.val = _; omega
  have hx : (fun k : Fin 40 => iblk m c 0 t (ix2 p k))
      = fun k : Fin 40 => V m c main_v21 (ix2 (⟨t.val * 20000 + p.val, hlt⟩ : Fin 800000) k) :=
    funext fun k => blk0_apply m c t p k _ rfl
  have hw0 : (fun (k : Fin 40) (j : Fin 128) => iblk m c 1 t (ix2 k j)) = fun (k : Fin 40) (j : Fin 128) => V m c main_v23 (ix2 k j) :=
    funext fun k => funext fun j => blk1_apply m c t k j
  have hb0 : (fun j : Fin 128 => iblk m c 2 t (ix1 j)) = fun j : Fin 128 => V m c main_v24 (ix1 j) :=
    funext fun j => blk2_apply m c t j
  have hw1 : (fun (k j : Fin 128) => iblk m c 3 t (ix2 k j)) = fun (k j : Fin 128) => V m c main_v30 (ix2 k j) :=
    funext fun k => funext fun j => blk3_apply m c t k j
  have hb1 : (fun j : Fin 128 => iblk m c 4 t (ix1 j)) = fun j : Fin 128 => V m c main_v31 (ix1 j) :=
    funext fun j => blk4_apply m c t j
  have hw2 : (fun (k : Fin 128) (j : Fin 32) => iblk m c 5 t (ix2 k j)) = fun (k : Fin 128) (j : Fin 32) => V m c main_v37 (ix2 k j) :=
    funext fun k => funext fun j => blk5_apply m c t k j
  have hb2 : (fun j : Fin 32 => iblk m c 6 t (ix1 j)) = fun j : Fin 32 => V m c main_v38 (ix1 j) :=
    funext fun j => blk6_apply m c t j
  rw [hx, hw0, hb0, hw1, hb1, hw2, hb2]
  unfold G
  have e0 : (⟨((((cfg0.win 7).blk t).view.emb (ix2 p q)) 0).val, idx2_lt0 _⟩ : Fin 800000) = ⟨t.val * 20000 + p.val, hlt⟩ := Fin.ext h0
  have e1 : (⟨((((cfg0.win 7).blk t).view.emb (ix2 p q)) 1).val, idx2_lt1 _⟩ : Fin 32) = q := Fin.ext h1
  rw [e0, e1]

/-- An index of the output array is in point `t`'s block iff each coordinate is in the block's range on its axis. -/
theorem mem_blk7 (t : Fin cfg0.N) (i : S800000x32.Idx) :
    i ∈ ((cfg0.win 7).blk t).view.set ↔ ∀ a : Fin 2, win0_7.index t a * S20000x32.size a ≤ (i a).val
      ∧ (i a).val < win0_7.index t a * S20000x32.size a + S20000x32.size a := by
  show i ∈ ((View.whole main_v39).slice (win0_7.rect t)).set ↔ _
  rw [View.set_slice_whole, Rect.mem_set_unit]
  exact Iff.rfl

/-- The forty blocks of 20000 rows tile the output array: row `r` lies in the block of point `r / 20000`. -/
theorem covered (i : S800000x32.Idx) :
    ∃ t : Fin cfg0.N, (cfg0.win 7).flush t = true ∧ i ∈ ((cfg0.win 7).blk t).view.set := by
  have hi0 : (i 0).val < 800000 := idx2_lt0 i
  have hi1 : (i 1).val < 32 := idx2_lt1 i
  have hN : cfg0.N = 40 := N_0
  have htlt : (i 0).val / 20000 < cfg0.N := by rw [hN]; omega
  refine ⟨⟨(i 0).val / 20000, htlt⟩, flush0_7 _, ?_⟩
  rw [mem_blk7]
  obtain ⟨-, -, e2, e3, -⟩ := idx_facts ⟨(i 0).val / 20000, htlt⟩
  have e2' : win0_7.index ⟨(i 0).val / 20000, htlt⟩ (0 : Fin 2) = (i 0).val / 20000 := e2
  intro a
  match a with
  | ⟨0, _⟩ =>
    show win0_7.index ⟨(i 0).val / 20000, htlt⟩ (0 : Fin 2) * 20000 ≤ (i 0).val
      ∧ (i 0).val < win0_7.index ⟨(i 0).val / 20000, htlt⟩ (0 : Fin 2) * 20000 + 20000
    omega
  | ⟨1, _⟩ =>
    show win0_7.index ⟨(i 0).val / 20000, htlt⟩ (1 : Fin 2) * 32 ≤ (i 1).val
      ∧ (i 1).val < win0_7.index ⟨(i 0).val / 20000, htlt⟩ (1 : Fin 2) * 32 + 32
    omega

/-- The output array after the run is `G`. -/
theorem final7 (c : Dev nD) : (dats m 0 c).arrAt 7 cfg0.N = G m c :=
  (dats m 0 c).arrAt_eq_of_cover 7 (G m c) (fun t _ => flushed_eq m c t) covered

/-! ## The operations after the region -/

/-- What the twenty-five operations after the region compute from the mask column, the two index arrays and the region's
    output array: the output times the mask, cut into its two ports' halves, each half scatter-added at its port's
    node indices into a zero table, then the hyperbolic tangent. -/
def tailK (mc : (⟨S800000x1, .f32⟩ : BufTy).Contents (Elt Ideal)) (a3 a4 : (⟨S800000, .i32⟩ : BufTy).Contents (Elt Ideal))
    (out : (⟨S800000x32, .f32⟩ : BufTy).Contents (Elt Ideal)) : (⟨S100000x16, .f32⟩ : BufTy).Contents (Elt Ideal) :=
  Host.tanh (Host.scatterAdd scatter_S100000x16_S800000x1_S800000x16_1_0_0_1
    (Host.scatterAdd scatter_S100000x16_S800000x1_S800000x16_1_0_0_1
      (broadcastInDim S100000x16 ![] bcast_S_S100000x16 (constant (F := Ideal) S_ .f32 0x00000000#32))
      (idxCol (F := Ideal) a3)
      (extractStridedSlice S800000x16 ![0, 0]
        (mulf out (broadcastInDim S800000x32 ![0, 1] bcast_S800000x1_S800000x32_0_1 mc)) slices_S800000x32_S800000x16_0_0))
    (idxCol (F := Ideal) a4)
    (extractStridedSlice S800000x16 ![0, 16]
      (mulf out (broadcastInDim S800000x32 ![0, 1] bcast_S800000x1_S800000x32_0_1 mc)) slices_S800000x32_S800000x16_0_16))

set_option maxHeartbeats 4000000 in
/-- The result buffer after the run: the operations after the region read the region's output array, which is `G`,
    the mask column the host prefix made, and the two index arrays, which are as launched. -/
theorem tail_eq (c : Dev nD) :
    Pipeline.afterTail₀ cfgs (dats m) 0 (V0 m) [hostOps1] c main_v59
      = tailK (maskCol (F := Ideal) (m ((c : Thread nD τ).loc main_arg2))) (m ((c : Thread nD τ).loc main_arg3)) (m ((c : Thread nD τ).loc main_arg4)) (G m c) := by
  unfold Pipeline.afterTail₀
  have h39 : Pipeline.withArrays (cfgs 0).spec c (V0 m c) (fun w => (dats m 0 c).arrAt w (cfgs 0).N) (Proc.devRef .tc main_v39) = G m c :=
    (Pipeline.withArrays_arr spec0 launch0.win.arr_inj c _ _ 7).trans (final7 m c)
  have h0 : Pipeline.withArrays (cfgs 0).spec c (V0 m c) (fun w => (dats m 0 c).arrAt w (cfgs 0).N) (Proc.devRef .tc main_v0)
      = maskCol (F := Ideal) (m ((c : Thread nD τ).loc main_arg2)) :=
    (Pipeline.withArrays_of_ne spec0 c (V0 m c) _ main_v0 (by decide)).trans (V_v0 m c)
  have h3 : Pipeline.withArrays (cfgs 0).spec c (V0 m c) (fun w => (dats m 0 c).arrAt w (cfgs 0).N) (Proc.devRef .tc main_arg3) = (m ((c : Thread nD τ).loc main_arg3)) :=
    (Pipeline.withArrays_of_ne spec0 c (V0 m c) _ main_arg3 (by decide)).trans (V_kept m c main_arg3 (by decide))
  have h4 : Pipeline.withArrays (cfgs 0).spec c (V0 m c) (fun w => (dats m 0 c).arrAt w (cfgs 0).N) (Proc.devRef .tc main_arg4) = (m ((c : Thread nD τ).loc main_arg4)) :=
    (Pipeline.withArrays_of_ne spec0 c (V0 m c) _ main_arg4 (by decide)).trans (V_kept m c main_arg4 (by decide))
  generalize Pipeline.withArrays (cfgs 0).spec c (V0 m c) (fun w => (dats m 0 c).arrAt w (cfgs 0).N) = W at h39 h0 h3 h4 ⊢
  simp only [hostOps1, List.flatten_cons, List.flatten_nil, List.append_nil]
  after_results_simp3
  rw [h39, h0, h3, h4]
  rfl

end Cert.KernelIdeal.HandValue

end
-- ==== Proof.RefRows.lean ====
/-
  The reference's stages read one edge at a time: the masked edge input row, and each port's perceptron output,
  masked, as the three-layer perceptron of that row.
-/
import proofs.«415916_j17025250362097_3_alg».proof.Proof.Gen.ReferenceIdeal.Read
import proofs.«415916_j17025250362097_3_alg».proof.Proof.Spec
import proofs.«415916_j17025250362097_3_alg».proof.Proof.EdgeRow
import proofs.«415916_j17025250362097_3_alg».proof.Proof.Stages

noncomputable section

namespace Cert.RefRows

open Idealize.ShloMosaic Idealize.ShloMosaic.ValueIdx Cert.ReferenceIdeal Cert.ReferenceIdeal.Read

/-- The masked edge input at edge `e`, column `k`: the joined row times the edge's mask entry. -/
theorem inp_apply (x0 : (⟨S100000x16, .f32⟩ : BufTy).Contents (Elt Ideal)) (x1 : (⟨S800000x8, .f32⟩ : BufTy).Contents (Elt Ideal))
    (x2 : (⟨S800000, .f32⟩ : BufTy).Contents (Elt Ideal)) (x3 x4 : (⟨S800000, .i32⟩ : BufTy).Contents (Elt Ideal))
    (e : Fin 800000) (k : Fin 40) :
    val_main_v17 (F := Ideal) x0 x1 x2 x3 x4 (ix2 e k)
      = Cert.EdgeRow.pick (fun a => x1 (ix2 e a)) (fun a => val_main_v6 (F := Ideal) x0 x3 (ix2 e a))
          (fun a => val_main_v13 (F := Ideal) x0 x4 (ix2 e a)) k * x2 (ix1 e) := by
  -- the mask column, broadcast along the row, is read at the edge's own entry
  have hm : idx_main_v15 (idx_main_v16 (ix2 e k)) = ix1 e :=
    funext fun a => Fin.ext (by match a with | ⟨0, _⟩ => rfl)
  rw [val_main_v17_apply, val_main_v16_apply, val_main_v15_apply, hm, Ideal.mulf_def]
  congr 1
  -- the joined row at column k is the piece that column falls in
  unfold val_main_v14
  exact Cert.Stages.edge_row_apply (E := 800000) _ _ _ _ e k

/-- The first port's masked output at edge `e`, column `j`. -/
theorem outF_apply (x0 : (⟨S100000x16, .f32⟩ : BufTy).Contents (Elt Ideal)) (x1 : (⟨S800000x8, .f32⟩ : BufTy).Contents (Elt Ideal))
    (x2 : (⟨S800000, .f32⟩ : BufTy).Contents (Elt Ideal)) (x3 x4 : (⟨S800000, .i32⟩ : BufTy).Contents (Elt Ideal))
    (x5 : (⟨S40x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x16, .f32⟩ : BufTy).Contents (Elt Ideal)) (x10 : (⟨S16, .f32⟩ : BufTy).Contents (Elt Ideal))
    (e : Fin 800000) (j : Fin 16) :
    val_main_v34 (F := Ideal) x0 x1 x2 x3 x4 x5 x6 x7 x8 x9 x10 (ix2 e j)
      = Cert.Spec.mlp3 (fun k : Fin 40 => val_main_v17 (F := Ideal) x0 x1 x2 x3 x4 (ix2 e k))
          (fun (k : Fin 40) (j : Fin 64) => x5 (ix2 k j)) (fun j : Fin 64 => x6 (ix1 j))
          (fun (k : Fin 64) (j : Fin 64) => x7 (ix2 k j)) (fun j : Fin 64 => x8 (ix1 j))
          (fun (k : Fin 64) (j : Fin 16) => x9 (ix2 k j)) (fun j : Fin 16 => x10 (ix1 j)) j * x2 (ix1 e) := by
  -- the mask column, broadcast along the row, is read at the edge's own entry
  have hm : idx_main_v15 (idx_main_v33 (ix2 e j)) = ix1 e :=
    funext fun a => Fin.ext (by match a with | ⟨0, _⟩ => rfl)
  -- each bias row, broadcast down the edges, is read at the column; each product's operands are read along the
  -- contracted axis: the left one in the edge's row, the right one in the result's column
  have hb2 : idx_main_v30 (idx_main_v31 (ix2 e j)) = ix1 j :=
    funext fun a => Fin.ext (by match a with | ⟨0, _⟩ => rfl)
  have hl2 : ∀ k : Fin 64, lidx_main_v29 (ix2 e j) k = ix2 e k := fun k =>
    funext fun a => Fin.ext (by match a with | ⟨0, _⟩ => rfl | ⟨1, _⟩ => rfl)
  have hr2 : ∀ k : Fin 64, ridx_main_v29 (ix2 e j) k = ix2 k j := fun k =>
    funext fun a => Fin.ext (by match a with | ⟨0, _⟩ => rfl | ⟨1, _⟩ => rfl)
  have hb1 : ∀ k : Fin 64, idx_main_v25 (idx_main_v26 (ix2 e k)) = ix1 k := fun k =>
    funext fun a => Fin.ext (by match a with | ⟨0, _⟩ => rfl)
  have hl1 : ∀ k k' : Fin 64, lidx_main_v24 (ix2 e k) k' = ix2 e k' := fun k k' =>
    funext fun a => Fin.ext (by match a with | ⟨0, _⟩ => rfl | ⟨1, _⟩ => rfl)
  have hr1 : ∀ k k' : Fin 64, ridx_main_v24 (ix2 e k) k' = ix2 k' k := fun k k' =>
    funext fun a => Fin.ext (by match a with | ⟨0, _⟩ => rfl | ⟨1, _⟩ => rfl)
  have hb0 : ∀ k : Fin 64, idx_main_v20 (idx_main_v21 (ix2 e k)) = ix1 k := fun k =>
    funext fun a => Fin.ext (by match a with | ⟨0, _⟩ => rfl)
  have hl0 : ∀ (k : Fin 64) (k' : Fin 40), lidx_main_v19 (ix2 e k) k' = ix2 e k' := fun k k' =>
    funext fun a => Fin.ext (by match a with | ⟨0, _⟩ => rfl | ⟨1, _⟩ => rfl)
  have hr0 : ∀ (k : Fin 64) (k' : Fin 40), ridx_main_v19 (ix2 e k) k' = ix2 k' k := fun k k' =>
    funext fun a => Fin.ext (by match a with | ⟨0, _⟩ => rfl | ⟨1, _⟩ => rfl)
  -- read the stages outermost first; at the extended reals the operations are +, *, max and the zero word is 0
  simp only [val_main_v34_apply, val_main_v33_apply, val_main_v15_apply, val_main_v32_apply, val_main_v31_apply,
    val_main_v30_apply, val_main_v29_apply, val_main_v28_apply, val_main_call1_v0_apply, val_main_call1_cst_apply,
    val_main_v27_apply, val_main_v26_apply, val_main_v25_apply, val_main_v24_apply, val_main_v23_apply,
    val_main_call0_v0_apply, val_main_call0_cst_apply, val_main_v22_apply, val_main_v21_apply, val_main_v20_apply,
    val_main_v19_apply, hm, hb2, hl2, hr2, hb1, hl1, hr1, hb0, hl0, hr0,
    Ideal.mulf_def, Ideal.addf_def, Ideal.maximumf_def, Ideal.ofBits_def, Ideal.ofBits_zero_f32,
    Cert.Spec.mlp3, Cert.Spec.dense, Cert.Spec.relu]

/-- The second port's masked output at edge `e`, column `j`. -/
theorem outT_apply (x0 : (⟨S100000x16, .f32⟩ : BufTy).Contents (Elt Ideal)) (x1 : (⟨S800000x8, .f32⟩ : BufTy).Contents (Elt Ideal))
    (x2 : (⟨S800000, .f32⟩ : BufTy).Contents (Elt Ideal)) (x3 x4 : (⟨S800000, .i32⟩ : BufTy).Contents (Elt Ideal))
    (x11 : (⟨S40x64, .f32⟩ : BufTy).Contents (Elt Ideal)) (x12 : (⟨S64, .f32⟩ : BufTy).Contents (Elt Ideal))
    (x13 : (⟨S64x64, .f32⟩ : BufTy).Contents (Elt Ideal)) (x14 : (⟨S64, .f32⟩ : BufTy).Contents (Elt Ideal))
    (x15 : (⟨S64x16, .f32⟩ : BufTy).Contents (Elt Ideal)) (x16 : (⟨S16, .f32⟩ : BufTy).Contents (Elt Ideal))
    (e : Fin 800000) (j : Fin 16) :
    val_main_v57 (F := Ideal) x0 x1 x2 x3 x4 x11 x12 x13 x14 x15 x16 (ix2 e j)
      = Cert.Spec.mlp3 (fun k : Fin 40 => val_main_v17 (F := Ideal) x0 x1 x2 x3 x4 (ix2 e k))
          (fun (k : Fin 40) (j : Fin 64) => x11 (ix2 k j)) (fun j : Fin 64 => x12 (ix1 j))
          (fun (k : Fin 64) (j : Fin 64) => x13 (ix2 k j)) (fun j : Fin 64 => x14 (ix1 j))
          (fun (k : Fin 64) (j : Fin 16) => x15 (ix2 k j)) (fun j : Fin 16 => x16 (ix1 j)) j * x2 (ix1 e) := by
  -- the mask column, broadcast along the row, is read at the edge's own entry
  have hm : idx_main_v15 (idx_main_v56 (ix2 e j)) = ix1 e :=
    funext fun a => Fin.ext (by match a with | ⟨0, _⟩ => rfl)
  -- each bias row, broadcast down the edges, is read at the column; each product's operands are read along the
  -- contracted axis: the left one in the edge's row, the right one in the result's column
  have hb2 : idx_main_v53 (idx_main_v54 (ix2 e j)) = ix1 j :=
    funext fun a => Fin.ext (by match a with | ⟨0, _⟩ => rfl)
  have hl2 : ∀ k : Fin 64, lidx_main_v52 (ix2 e j) k = ix2 e k := fun k =>
    funext fun a => Fin.ext (by match a with | ⟨0, _⟩ => rfl | ⟨1, _⟩ => rfl)
  have hr2 : ∀ k : Fin 64, ridx_main_v52 (ix2 e j) k = ix2 k j := fun k =>
    funext fun a => Fin.ext (by match a with | ⟨0, _⟩ => rfl | ⟨1, _⟩ => rfl)
  have hb1 : ∀ k : Fin 64, idx_main_v48 (idx_main_v49 (ix2 e k)) = ix1 k := fun k =>
    funext fun a => Fin.ext (by match a with | ⟨0, _⟩ => rfl)
  have hl1 : ∀ k k' : Fin 64, lidx_main_v47 (ix2 e k) k' = ix2 e k' := fun k k' =>
    funext fun a => Fin.ext (by match a with | ⟨0, _⟩ => rfl | ⟨1, _⟩ => rfl)
  have hr1 : ∀ k k' : Fin 64, ridx_main_v47 (ix2 e k) k' = ix2 k' k := fun k k' =>
    funext fun a => Fin.ext (by match a with | ⟨0, _⟩ => rfl | ⟨1, _⟩ => rfl)
  have hb0 : ∀ k : Fin 64, idx_main_v43 (idx_main_v44 (ix2 e k)) = ix1 k := fun k =>
    funext fun a => Fin.ext (by match a with | ⟨0, _⟩ => rfl)
  have hl0 : ∀ (k : Fin 64) (k' : Fin 40), lidx_main_v42 (ix2 e k) k' = ix2 e k' := fun k k' =>
    funext fun a => Fin.ext (by match a with | ⟨0, _⟩ => rfl | ⟨1, _⟩ => rfl)
  have hr0 : ∀ (k : Fin 64) (k' : Fin 40), ridx_main_v42 (ix2 e k) k' = ix2 k' k := fun k k' =>
    funext fun a => Fin.ext (by match a with | ⟨0, _⟩ => rfl | ⟨1, _⟩ => rfl)
  -- read the stages outermost first; at the extended reals the operations are +, *, max and the zero word is 0
  simp only [val_main_v57_apply, val_main_v56_apply, val_main_v15_apply, val_main_v55_apply, val_main_v54_apply,
    val_main_v53_apply, val_main_v52_apply, val_main_v51_apply, val_main_call3_v0_apply, val_main_call3_cst_apply,
    val_main_v50_apply, val_main_v49_apply, val_main_v48_apply, val_main_v47_apply, val_main_v46_apply,
    val_main_call2_v0_apply, val_main_call2_cst_apply, val_main_v45_apply, val_main_v44_apply, val_main_v43_apply,
    val_main_v42_apply, hm, hb2, hl2, hr2, hb1, hl1, hr1, hb0, hl0, hr0,
    Ideal.mulf_def, Ideal.addf_def, Ideal.maximumf_def, Ideal.ofBits_def, Ideal.ofBits_zero_f32,
    Cert.Spec.mlp3, Cert.Spec.dense, Cert.Spec.relu]

end Cert.RefRows

end
-- ==== Proof.Bridge.lean ====
/-
  The kernel's result and the reference's are one function of the arguments. Row `e` of the region's output is the fused
  perceptron of the masked edge row; the fused perceptron is the two ports' perceptrons side by side; the operations
  after the region multiply by the mask and cut the two halves apart, which are the reference's two masked port
  outputs; and from there both programs scatter-add the same values at the same node indices into a zero table and
  take the hyperbolic tangent.
-/
import proofs.«415916_j17025250362097_3_alg».proof.Proof.KernelValue
import proofs.«415916_j17025250362097_3_alg».proof.Proof.RefRows
import proofs.«415916_j17025250362097_3_alg».proof.Proof.Spec
import proofs.«415916_j17025250362097_3_alg».proof.Proof.EdgeRow
import proofs.«415916_j17025250362097_3_alg».proof.Proof.KernelStages
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand Cert.KernelIdeal.HandValue Cert.KernelStages

variable (m : (ℓ : Loc nD τ sig) → Buf (Elt Ideal) ℓ)

/-- The masked edge row at edge `e`, as the kernel's host prefix makes it. -/
def rowK (c : Dev nD) (e : Fin 800000) : Fin 40 → EReal := fun k =>
  Cert.EdgeRow.pick (fun a => (m ((c : Thread nD τ).loc main_arg1)) (ix2 e a)) (fun a => gath (F := Ideal) (m ((c : Thread nD τ).loc main_arg0)) (m ((c : Thread nD τ).loc main_arg3)) (ix2 e a))
    (fun a => gath (F := Ideal) (m ((c : Thread nD τ).loc main_arg0)) (m ((c : Thread nD τ).loc main_arg4)) (ix2 e a)) k * (m ((c : Thread nD τ).loc main_arg2)) (ix1 e)

/-- Row `e` of the region's output: the two ports' perceptrons of the masked edge row, side by side. -/
theorem G_apply (c : Dev nD) (e : Fin 800000) (j : Fin 32) :
    G m c (ix2 e j)
      = Cert.Spec.beside (N := 32) (by norm_num)
          (Cert.Spec.mlp3 (rowK m c e) (fun (k : Fin 40) (j : Fin 64) => (m ((c : Thread nD τ).loc main_arg5)) (ix2 k j)) (fun j : Fin 64 => (m ((c : Thread nD τ).loc main_arg6)) (ix1 j))
            (fun (k j : Fin 64) => (m ((c : Thread nD τ).loc main_arg7)) (ix2 k j)) (fun j : Fin 64 => (m ((c : Thread nD τ).loc main_arg8)) (ix1 j))
            (fun (k : Fin 64) (j : Fin 16) => (m ((c : Thread nD τ).loc main_arg9)) (ix2 k j)) (fun j : Fin 16 => (m ((c : Thread nD τ).loc main_arg10)) (ix1 j)))
          (Cert.Spec.mlp3 (rowK m c e) (fun (k : Fin 40) (j : Fin 64) => (m ((c : Thread nD τ).loc main_arg11)) (ix2 k j)) (fun j : Fin 64 => (m ((c : Thread nD τ).loc main_arg12)) (ix1 j))
            (fun (k j : Fin 64) => (m ((c : Thread nD τ).loc main_arg13)) (ix2 k j)) (fun j : Fin 64 => (m ((c : Thread nD τ).loc main_arg14)) (ix1 j))
            (fun (k : Fin 64) (j : Fin 16) => (m ((c : Thread nD τ).loc main_arg15)) (ix2 k j)) (fun j : Fin 16 => (m ((c : Thread nD τ).loc main_arg16)) (ix1 j))) j := by
  unfold G
  show Cert.Spec.mlp3 (fun k : Fin 40 => V m c main_v21 (ix2 e k))
      (fun (k : Fin 40) (j : Fin 128) => V m c main_v23 (ix2 k j)) (fun j : Fin 128 => V m c main_v24 (ix1 j))
      (fun (k j : Fin 128) => V m c main_v30 (ix2 k j)) (fun j : Fin 128 => V m c main_v31 (ix1 j))
      (fun (k : Fin 128) (j : Fin 32) => V m c main_v37 (ix2 k j)) (fun j : Fin 32 => V m c main_v38 (ix1 j)) j = _
  have hx : (fun k : Fin 40 => V m c main_v21 (ix2 e k)) = rowK m c e :=
    funext fun k => by rw [V_v21]; exact inpK_apply _ _ _ _ _ e k
  have hw0 : (fun (k : Fin 40) (j : Fin 128) => V m c main_v23 (ix2 k j))
      = Cert.Spec.catCols (N := 128) (by norm_num) (fun (k : Fin 40) (j : Fin 64) => (m ((c : Thread nD τ).loc main_arg5)) (ix2 k j)) (fun (k : Fin 40) (j : Fin 64) => (m ((c : Thread nD τ).loc main_arg11)) (ix2 k j)) :=
    funext fun k => funext fun j => by rw [V_v23]; exact wcat0_apply _ _ k j
  have hb0 : (fun j : Fin 128 => V m c main_v24 (ix1 j))
      = Cert.Spec.beside (N := 128) (by norm_num) (fun j : Fin 64 => (m ((c : Thread nD τ).loc main_arg6)) (ix1 j)) (fun j : Fin 64 => (m ((c : Thread nD τ).loc main_arg12)) (ix1 j)) :=
    funext fun j => by rw [V_v24]; exact bcat128_apply _ _ j
  have hw1 : (fun (k j : Fin 128) => V m c main_v30 (ix2 k j))
      = Cert.Spec.blockDiag (K := 128) (N := 128) (by norm_num) (by norm_num) (fun (k j : Fin 64) => (m ((c : Thread nD τ).loc main_arg7)) (ix2 k j)) (fun (k j : Fin 64) => (m ((c : Thread nD τ).loc main_arg13)) (ix2 k j)) :=
    funext fun k => funext fun j => by rw [V_v30]; exact w1bd_apply _ _ k j
  have hb1 : (fun j : Fin 128 => V m c main_v31 (ix1 j))
      = Cert.Spec.beside (N := 128) (by norm_num) (fun j : Fin 64 => (m ((c : Thread nD τ).loc main_arg8)) (ix1 j)) (fun j : Fin 64 => (m ((c : Thread nD τ).loc main_arg14)) (ix1 j)) :=
    funext fun j => by rw [V_v31]; exact bcat128_apply _ _ j
  have hw2 : (fun (k : Fin 128) (j : Fin 32) => V m c main_v37 (ix2 k j))
      = Cert.Spec.blockDiag (K := 128) (N := 32) (by norm_num) (by norm_num) (fun (k : Fin 64) (j : Fin 16) => (m ((c : Thread nD τ).loc main_arg9)) (ix2 k j)) (fun (k : Fin 64) (j : Fin 16) => (m ((c : Thread nD τ).loc main_arg15)) (ix2 k j)) :=
    funext fun k => funext fun j => by rw [V_v37]; exact w2bd_apply _ _ k j
  have hb2 : (fun j : Fin 32 => V m c main_v38 (ix1 j))
      = Cert.Spec.beside (N := 32) (by norm_num) (fun j : Fin 16 => (m ((c : Thread nD τ).loc main_arg10)) (ix1 j)) (fun j : Fin 16 => (m ((c : Thread nD τ).loc main_arg16)) (ix1 j)) :=
    funext fun j => by rw [V_v38]; exact bcat32_apply _ _ j
  rw [hx, hw0, hb0, hw1, hb1, hw2, hb2]
  exact congrFun (Cert.Spec.fused_eq _ _ _ _ _ _ _ _ _ _ _ _ _) j

/-! ## The two halves of the masked output -/

/-- The output times the mask, as the operations after the region form it. -/
def maskedOf (out : (⟨S800000x32, .f32⟩ : BufTy).Contents (Elt Ideal)) (a2 : (⟨S800000, .f32⟩ : BufTy).Contents (Elt Ideal)) :
    (⟨S800000x32, .f32⟩ : BufTy).Contents (Elt Ideal) :=
  mulf (F := Ideal) (φ := .f32) out (broadcastInDim S800000x32 ![0, 1] bcast_S800000x1_S800000x32_0_1 (maskCol (F := Ideal) a2))

/-- The region's output times the mask. -/
def masked (c : Dev nD) : (⟨S800000x32, .f32⟩ : BufTy).Contents (Elt Ideal) := maskedOf (G m c) (m ((c : Thread nD τ).loc main_arg2))

theorem maskedOf_apply (out : (⟨S800000x32, .f32⟩ : BufTy).Contents (Elt Ideal)) (a2 : (⟨S800000, .f32⟩ : BufTy).Contents (Elt Ideal))
    (e : Fin 800000) (j : Fin 32) : maskedOf out a2 (ix2 e j) = out (ix2 e j) * a2 (ix1 e) := by
  unfold maskedOf
  rw [mulf_apply]
  exact congrArg (out (ix2 e j) * ·) (maskB_apply (n := 32) bcast_S800000x1_S800000x32_0_1 a2 e j)

theorem masked_apply (c : Dev nD) (e : Fin 800000) (j : Fin 32) :
    masked m c (ix2 e j) = G m c (ix2 e j) * (m ((c : Thread nD τ).loc main_arg2)) (ix1 e) :=
  maskedOf_apply _ _ e j

/-- The first sixteen columns of the masked output. -/
theorem sliceF_apply (c : Dev nD) (e : Fin 800000) (j : Fin 16) :
    extractStridedSlice S800000x16 ![0, 0] (masked m c) slices_S800000x32_S800000x16_0_0 (ix2 e j)
      = G m c (ix2 e (⟨j.val, by omega⟩ : Fin 32)) * (m ((c : Thread nD τ).loc main_arg2)) (ix1 e) := by
  refine (extractStridedSlice_apply _ _ _ (ix2 e j) (ix2 e (⟨j.val, by omega⟩ : Fin 32)) fun a => ?_).trans (masked_apply m c e _)
  match a with
  | ⟨0, _⟩ => show e.val = 0 + e.val; omega
  | ⟨1, _⟩ => show j.val = 0 + j.val; omega

/-- The last sixteen columns of the masked output. -/
theorem sliceT_apply (c : Dev nD) (e : Fin 800000) (j : Fin 16) :
    extractStridedSlice S800000x16 ![0, 16] (masked m c) slices_S800000x32_S800000x16_0_16 (ix2 e j)
      = G m c (ix2 e (⟨j.val + 16, by omega⟩ : Fin 32)) * (m ((c : Thread nD τ).loc main_arg2)) (ix1 e) := by
  refine (extractStridedSlice_apply _ _ _ (ix2 e j) (ix2 e (⟨j.val + 16, by omega⟩ : Fin 32)) fun a => ?_).trans (masked_apply m c e _)
  match a with
  | ⟨0, _⟩ => show e.val = 0 + e.val; omega
  | ⟨1, _⟩ => show j.val + 16 = 16 + j.val; omega

/-- Two rows of sixteen side by side, at one of the first sixteen entries. -/
theorem beside_fst (f g : Fin 16 → EReal) (j : Fin 16) :
    Cert.Spec.beside (N := 32) (by norm_num) f g (⟨j.val, by omega⟩ : Fin 32) = f j := by
  unfold Cert.Spec.beside
  rw [dif_pos (show ((⟨j.val, by omega⟩ : Fin 32)).val < 16 from j.isLt)]

/-- Two rows of sixteen side by side, at one of the last sixteen entries. -/
theorem beside_snd (f g : Fin 16 → EReal) (j : Fin 16) :
    Cert.Spec.beside (N := 32) (by norm_num) f g (⟨j.val + 16, by omega⟩ : Fin 32) = g j := by
  unfold Cert.Spec.beside
  rw [dif_neg (show ¬ ((⟨j.val + 16, by omega⟩ : Fin 32)).val < 16 from by show ¬ j.val + 16 < 16; omega)]
  exact congrArg g (Fin.ext (by show j.val + 16 - 16 = j.val; omega))

/-! ## The reference's stages at the kernel's arguments -/

/-- The reference's masked edge row, at the kernel's argument arrays, is the kernel's: the two programs gather the same
    rows of the coordinate table. -/
theorem refRow (c : Dev nD) (e : Fin 800000) :
    (fun k : Fin 40 => Cert.ReferenceIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 e k)) = rowK m c e :=
  funext fun k => Cert.RefRows.inp_apply _ _ _ _ _ e k

/-- The reference's first port, masked, at edge `e` and column `j`. -/
theorem refF_apply (c : Dev nD) (e : Fin 800000) (j : Fin 16) :
    Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 e j)
      = (Cert.Spec.mlp3 (rowK m c e) (fun (k : Fin 40) (j : Fin 64) => (m ((c : Thread nD τ).loc main_arg5)) (ix2 k j)) (fun j : Fin 64 => (m ((c : Thread nD τ).loc main_arg6)) (ix1 j))
            (fun (k j : Fin 64) => (m ((c : Thread nD τ).loc main_arg7)) (ix2 k j)) (fun j : Fin 64 => (m ((c : Thread nD τ).loc main_arg8)) (ix1 j))
            (fun (k : Fin 64) (j : Fin 16) => (m ((c : Thread nD τ).loc main_arg9)) (ix2 k j)) (fun j : Fin 16 => (m ((c : Thread nD τ).loc main_arg10)) (ix1 j))) j * (m ((c : Thread nD τ).loc main_arg2)) (ix1 e) := by
  rw [Cert.RefRows.outF_apply, refRow]

/-- The reference's second port, masked, at edge `e` and column `j`. -/
theorem refT_apply (c : Dev nD) (e : Fin 800000) (j : Fin 16) :
    Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 e j)
      = (Cert.Spec.mlp3 (rowK m c e) (fun (k : Fin 40) (j : Fin 64) => (m ((c : Thread nD τ).loc main_arg11)) (ix2 k j)) (fun j : Fin 64 => (m ((c : Thread nD τ).loc main_arg12)) (ix1 j))
            (fun (k j : Fin 64) => (m ((c : Thread nD τ).loc main_arg13)) (ix2 k j)) (fun j : Fin 64 => (m ((c : Thread nD τ).loc main_arg14)) (ix1 j))
            (fun (k : Fin 64) (j : Fin 16) => (m ((c : Thread nD τ).loc main_arg15)) (ix2 k j)) (fun j : Fin 16 => (m ((c : Thread nD τ).loc main_arg16)) (ix1 j))) j * (m ((c : Thread nD τ).loc main_arg2)) (ix1 e) := by
  rw [Cert.RefRows.outT_apply, refRow]

/-- The first half of the kernel's masked output is the reference's first masked port output. -/
theorem halfF_eq (c : Dev nD) :
    extractStridedSlice S800000x16 ![0, 0] (masked m c) slices_S800000x32_S800000x16_0_0
      = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨e, j, rfl⟩ : ∃ (e : Fin 800000) (j : Fin 16), i = ix2 e j := ⟨i 0, i 1, eq_ix2 i⟩
  rw [sliceF_apply, G_apply, beside_fst, refF_apply]

/-- The second half of the kernel's masked output is the reference's second masked port output. -/
theorem halfT_eq (c : Dev nD) :
    extractStridedSlice S800000x16 ![0, 16] (masked m c) slices_S800000x32_S800000x16_0_16
      = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  obtain ⟨e, j, rfl⟩ : ∃ (e : Fin 800000) (j : Fin 16), i = ix2 e j := ⟨i 0, i 1, eq_ix2 i⟩
  rw [sliceT_apply, G_apply, beside_snd, refT_apply]

/-! ## The two results -/

set_option maxHeartbeats 2000000 in
/-- The kernel's result is the reference's result term at the same arguments: both scatter-add the same two arrays at
    the same node indices into a zero table and take the hyperbolic tangent. -/
theorem result_eq (c : Dev nD) :
    tailK (maskCol (F := Ideal) (m ((c : Thread nD τ).loc main_arg2))) (m ((c : Thread nD τ).loc main_arg3)) (m ((c : Thread nD τ).loc main_arg4)) (G m c)
      = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold Cert.ReferenceIdeal.Read.val_main_v65 Cert.ReferenceIdeal.Read.val_main_v64 Cert.ReferenceIdeal.Read.val_main_v41
  rw [← halfF_eq m c, ← halfT_eq m c]
  rfl

end Cert.Bridge

end
-- ==== Proof.lean ====
/-
  The certificate. The kernel computes, per edge, ONE three-layer perceptron of width 128 whose first-layer matrix is the
  two ports' matrices side by side and whose later matrices are block diagonal; the reference computes the two ports'
  perceptrons of width 64 separately. On the extended reals the zero blocks contribute `x * 0 = 0` to every sum, so the
  fused perceptron's output row is the two ports' output rows side by side — for every input, finite or not: the
  precondition is never opened. Around the perceptron both programs do the same things: gather the two end nodes'
  coordinates, mask, join (the kernel masks the pieces before joining them, the reference after: the same entries),
  multiply the outputs by the mask, scatter-add each port's rows at its node indices into a zero table, and take the
  hyperbolic tangent. Each program's frame: its run ends, faults nowhere, and leaves the seventeen argument arrays as
  launched (no host operation writes one and no window stages one). The ideal pass rewrote nothing, so there is
  nothing to preserve.
-/
import proofs.«415916_j17025250362097_3_alg».proof.Defs
import proofs.«415916_j17025250362097_3_alg».proof.Proof.Gen.Kernel
import proofs.«415916_j17025250362097_3_alg».proof.Proof.Gen.KernelIdeal
import proofs.«415916_j17025250362097_3_alg».proof.Proof.Gen.ReferenceIdeal
import proofs.«415916_j17025250362097_3_alg».proof.Proof.Gen.Pre_finite_inputs
import proofs.«415916_j17025250362097_3_alg».proof.Proof.Gen.ReferenceIdeal.Run
import proofs.«415916_j17025250362097_3_alg».proof.Proof.Gen.ReferenceIdeal.Read
import proofs.«415916_j17025250362097_3_alg».proof.Proof.FrameK
import proofs.«415916_j17025250362097_3_alg».proof.Proof.FrameKI
import proofs.«415916_j17025250362097_3_alg».proof.Proof.KernelValue
import proofs.«415916_j17025250362097_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel's frame. -/
theorem frame_k : Cert.frame_Kernel := fun m ρ _ => Cert.Kernel.Hand.frame m ρ

/-- The idealized kernel's frame. -/
theorem frame_ki : Cert.frame_KernelIdeal := fun m ρ _ => Cert.KernelIdeal.Hand.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Gen Cert.KernelIdeal.Hand Cert.KernelIdeal.HandValue Cert.KernelStages in
/-- The idealized kernel's run with its result named: the hyperbolic tangent of the two scatter-added halves of the
    masked perceptron outputs, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v59)
        = tailK (maskCol (F := Ideal) (m ((c.tc : Thread nD τ).loc main_arg2))) (m ((c.tc : Thread nD τ).loc main_arg3))
            (m ((c.tc : Thread nD τ).loc main_arg4)) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨
    ((h c).2 main_v59 (Pipeline.mem_restRefs_of main_v59 (by decide) (by decide))).trans (tail_eq m c),
    ((h c).2 main_arg0 (Pipeline.mem_restRefs_of main_arg0 (by decide) (by decide))).trans (W_kept m (dats m) c main_arg0 (by decide) (by decide) (by decide)),
    ((h c).2 main_arg1 (Pipeline.mem_restRefs_of main_arg1 (by decide) (by decide))).trans (W_kept m (dats m) c main_arg1 (by decide) (by decide) (by decide)),
    ((h c).2 main_arg2 (Pipeline.mem_restRefs_of main_arg2 (by decide) (by decide))).trans (W_kept m (dats m) c main_arg2 (by decide) (by decide) (by decide)),
    ((h c).2 main_arg3 (Pipeline.mem_restRefs_of main_arg3 (by decide) (by decide))).trans (W_kept m (dats m) c main_arg3 (by decide) (by decide) (by decide)),
    ((h c).2 main_arg4 (Pipeline.mem_restRefs_of main_arg4 (by decide) (by decide))).trans (W_kept m (dats m) c main_arg4 (by decide) (by decide) (by decide)),
    ((h c).2 main_arg5 (Pipeline.mem_restRefs_of main_arg5 (by decide) (by decide))).trans (W_kept m (dats m) c main_arg5 (by decide) (by decide) (by decide)),
    ((h c).2 main_arg6 (Pipeline.mem_restRefs_of main_arg6 (by decide) (by decide))).trans (W_kept m (dats m) c main_arg6 (by decide) (by decide) (by decide)),
    ((h c).2 main_arg7 (Pipeline.mem_restRefs_of main_arg7 (by decide) (by decide))).trans (W_kept m (dats m) c main_arg7 (by decide) (by decide) (by decide)),
    ((h c).2 main_arg8 (Pipeline.mem_restRefs_of main_arg8 (by decide) (by decide))).trans (W_kept m (dats m) c main_arg8 (by decide) (by decide) (by decide)),
    ((h c).2 main_arg9 (Pipeline.mem_restRefs_of main_arg9 (by decide) (by decide))).trans (W_kept m (dats m) c main_arg9 (by decide) (by decide) (by decide)),
    ((h c).2 main_arg10 (Pipeline.mem_restRefs_of main_arg10 (by decide) (by decide))).trans (W_kept m (dats m) c main_arg10 (by decide) (by decide) (by decide)),
    ((h c).2 main_arg11 (Pipeline.mem_restRefs_of main_arg11 (by decide) (by decide))).trans (W_kept m (dats m) c main_arg11 (by decide) (by decide) (by decide)),
    ((h c).2 main_arg12 (Pipeline.mem_restRefs_of main_arg12 (by decide) (by decide))).trans (W_kept m (dats m) c main_arg12 (by decide) (by decide) (by decide)),
    ((h c).2 main_arg13 (Pipeline.mem_restRefs_of main_arg13 (by decide) (by decide))).trans (W_kept m (dats m) c main_arg13 (by decide) (by decide) (by decide)),
    ((h c).2 main_arg14 (Pipeline.mem_restRefs_of main_arg14 (by decide) (by decide))).trans (W_kept m (dats m) c main_arg14 (by decide) (by decide) (by decide)),
    ((h c).2 main_arg15 (Pipeline.mem_restRefs_of main_arg15 (by decide) (by decide))).trans (W_kept m (dats m) c main_arg15 (by decide) (by decide) (by decide)),
    ((h c).2 main_arg16 (Pipeline.mem_restRefs_of main_arg16 (by decide) (by decide))).trans (W_kept m (dats m) c main_arg16 (by decide) (by decide) (by decide))⟩)
    (run_main (F := Ideal) m ρ)

/-- The two idealized programs, run from memories that agree on the arguments, end with equal results. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v65_eq, h0, h1, h2, h3, h4, h5, h6, h7, h8, h9, h10, h11, h12, h13, h14, h15, h16]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
